-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x81920 : Shape := ⟨2, ![1024, 81920]⟩
abbrev S1024x1 : Shape := ⟨2, ![1024, 1]⟩
abbrev S4x81920 : Shape := ⟨2, ![4, 81920]⟩
abbrev S4 : Shape := ⟨1, ![4]⟩
abbrev S8x8 : Shape := ⟨2, ![8, 8]⟩
abbrev S8 : Shape := ⟨1, ![8]⟩
abbrev S1x8 : Shape := ⟨2, ![1, 8]⟩
abbrev S1 : Shape := ⟨1, ![1]⟩
abbrev S_ : Shape := ⟨0, ![]⟩

class Facts : Prop where
  bcast_S_S1024x81920 : S_.BroadcastsInDim S1024x81920 (![] : Fin 0 → Fin S1024x81920.rank)
  reducesTo_S1024x81920_S_d0_1 : S1024x81920.ReducesTo [0, 1] S_
  h_S_ : 0 < S_.numel
  bcast_S_S1024x1 : S_.BroadcastsInDim S1024x1 (![] : Fin 0 → Fin S1024x1.rank)
  reducesTo_S1024x1_S_d0_1 : S1024x1.ReducesTo [0, 1] S_
  bcast_S_S4x81920 : S_.BroadcastsInDim S4x81920 (![] : Fin 0 → Fin S4x81920.rank)
  reducesTo_S4x81920_S_d0_1 : S4x81920.ReducesTo [0, 1] S_
  bcast_S_S4 : S_.BroadcastsInDim S4 (![] : Fin 0 → Fin S4.rank)
  reducesTo_S4_S_d0 : S4.ReducesTo [0] S_
  bcast_S_S8x8 : S_.BroadcastsInDim S8x8 (![] : Fin 0 → Fin S8x8.rank)
  reducesTo_S8x8_S_d0_1 : S8x8.ReducesTo [0, 1] S_
  bcast_S_S8 : S_.BroadcastsInDim S8 (![] : Fin 0 → Fin S8.rank)
  reducesTo_S8_S_d0 : S8.ReducesTo [0] S_
  bcast_S_S1x8 : S_.BroadcastsInDim S1x8 (![] : Fin 0 → Fin S1x8.rank)
  reducesTo_S1x8_S_d0_1 : S1x8.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg7 : FVec F S8x8 .f32) (main_arg8 : FVec F S8 .f32) (main_arg9 : FVec F S1x8 .f32) (main_arg10 : FVec F S1 .f32) (main_v33 : IVec S_ 1) : IVec S_ 1 :=
  let main_v34 : FVec F S8x8 .f32 := Host.absf main_arg7
  let main_cst_12 : FVec F S_ .f32 := constant S_ .f32 0x7F800000#32
  let main_v35 : FVec F S8x8 .f32 := broadcastInDim S8x8 ![] bcast_S_S8x8 main_cst_12
  let main_v36 : IVec S8x8 1 := cmpf .olt main_v34 main_v35
  let main_c_13 : IVec S_ 1 := constantI S_ 1 1#1
  let main_v37 : IVec S_ 1 := (fun x v => Host.reduce IntOp.andi x v reducesTo_S8x8_S_d0_1 h_S_) main_v36 main_c_13
  let main_v38 : IVec S_ 1 := andi main_v33 main_v37
  let main_v39 : FVec F S8 .f32 := Host.absf main_arg8
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_v44 : FVec F S1x8 .f32 := Host.absf main_arg9
  let main_cst_16 : FVec F S_ .f32 := constant S_ .f32 0x7F800000#32
  let main_v45 : FVec F S1x8 .f32 := broadcastInDim S1x8 ![] bcast_S_S1x8 main_cst_16
  let main_v46 : IVec S1x8 1 := cmpf .olt main_v44 main_v45
  let main_c_17 : IVec S_ 1 := constantI S_ 1 1#1
  let main_v47 : IVec S_ 1 := (fun x v => Host.reduce IntOp.andi x v reducesTo_S1x8_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg4 : FVec F S1024x1 .f32) (main_arg5 : FVec F S4x81920 .f32) (main_arg6 : FVec F S4 .f32) (main_arg7 : FVec F S8x8 .f32) (main_arg8 : FVec F S8 .f32) (main_arg9 : FVec F S1x8 .f32) (main_arg10 : FVec F S1 .f32) (main_v13 : IVec S_ 1) (main_v16 : IVec S1024x1 1) : IVec S_ 1 :=
  let main_c_5 : IVec S_ 1 := constantI S_ 1 1#1
  let main_v17 : IVec S_ 1 := (fun x v => Host.reduce IntOp.andi x v reducesTo_S1024x1_S_d0_1 h_S_) main_v16 main_c_5
  let main_v18 : IVec S_ 1 := andi main_v13 main_v17
  let main_v19 : FVec F S1024x1 .f32 := Host.absf main_arg4
  let main_cst_6 : FVec F S_ .f32 := constant S_ .f32 0x7F800000#32
  let main_v20 : FVec F S1024x1 .f32 := broadcastInDim S1024x1 ![] bcast_S_S1024x1 main_cst_6
  let main_v21 : IVec S1024x1 1 := cmpf .olt main_v19 main_v20
  let main_c_7 : IVec S_ 1 := constantI S_ 1 1#1
  let main_v22 : IVec S_ 1 := (fun x v => Host.reduce IntOp.andi x v reducesTo_S1024x1_S_d0_1 h_S_) main_v21 main_c_7
  let main_v23 : IVec S_ 1 := andi main_v18 main_v22
  let main_v24 : FVec F S4x81920 .f32 := Host.absf main_arg5
  let main_cst_8 : FVec F S_ .f32 := constant S_ .f32 0x7F800000#32
  let main_v25 : FVec F S4x81920 .f32 := broadcastInDim S4x81920 ![] bcast_S_S4x81920 main_cst_8
  let main_v26 : IVec S4x81920 1 := cmpf .olt main_v24 main_v25
  let main_c_9 : IVec S_ 1 := constantI S_ 1 1#1
  let main_v27 : IVec S_ 1 := (fun x v => Host.reduce IntOp.andi x v reducesTo_S4x81920_S_d0_1 h_S_) main_v26 main_c_9
  let main_v28 : IVec S_ 1 := andi main_v23 main_v27
  let main_v29 : FVec F S4 .f32 := Host.absf main_arg6
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S1024x81920 .f32) (main_arg1 : FVec F S1024x81920 .f32) (main_arg2 : FVec F S1024x1 .f32) (main_arg3 : FVec F S1024x1 .f32) (main_arg4 : FVec F S1024x1 .f32) (main_arg5 : FVec F S4x81920 .f32) (main_arg6 : FVec F S4 .f32) (main_arg7 : FVec F S8x8 .f32) (main_arg8 : FVec F S8 .f32) (main_arg9 : FVec F S1x8 .f32) (main_arg10 : FVec F S1 .f32) : IVec S_ 1 :=
  let main_v0 : FVec F S1024x81920 .f32 := Host.absf main_arg0
  let main_cst : FVec F S_ .f32 := constant S_ .f32 0x7F800000#32
  let main_v1 : FVec F S1024x81920 .f32 := broadcastInDim S1024x81920 ![] bcast_S_S1024x81920 main_cst
  let main_v2 : IVec S1024x81920 1 := cmpf .olt main_v0 main_v1
  let main_c : IVec S_ 1 := constantI S_ 1 1#1
  let main_v3 : IVec S_ 1 := (fun x v => Host.reduce IntOp.andi x v reducesTo_S1024x81920_S_d0_1 h_S_) main_v2 main_c
  let main_v4 : FVec F S1024x81920 .f32 := Host.absf main_arg1
  let main_cst_0 : FVec F S_ .f32 := constant S_ .f32 0x7F800000#32
  let main_v5 : FVec F S1024x81920 .f32 := broadcastInDim S1024x81920 ![] bcast_S_S1024x81920 main_cst_0
  let main_v6 : IVec S1024x81920 1 := cmpf .olt main_v4 main_v5
  let main_c_1 : IVec S_ 1 := constantI S_ 1 1#1
  let main_v7 : IVec S_ 1 := (fun x v => Host.reduce IntOp.andi x v reducesTo_S1024x81920_S_d0_1 h_S_) main_v6 main_c_1
  let main_v8 : IVec S_ 1 := andi main_v3 main_v7
  let main_v9 : FVec F S1024x1 .f32 := Host.absf main_arg2
  let main_cst_2 : FVec F S_ .f32 := constant S_ .f32 0x7F800000#32
  let main_v10 : FVec F S1024x1 .f32 := broadcastInDim S1024x1 ![] bcast_S_S1024x1 main_cst_2
  let main_v11 : IVec S1024x1 1 := cmpf .olt main_v9 main_v10
  let main_c_3 : IVec S_ 1 := constantI S_ 1 1#1
  let main_v12 : IVec S_ 1 := (fun x v => Host.reduce IntOp.andi x v reducesTo_S1024x1_S_d0_1 h_S_) main_v11 main_c_3
  let main_v13 : IVec S_ 1 := andi main_v8 main_v12
  let main_v14 : FVec F S1024x1 .f32 := Host.absf main_arg3
  let main_cst_4 : FVec F S_ .f32 := constant S_ .f32 0x7F800000#32
  let main_v15 : FVec F S1024x1 .f32 := broadcastInDim S1024x1 ![] bcast_S_S1024x1 main_cst_4
  let main_v16 : IVec S1024x1 1 := cmpf .olt main_v14 main_v15
  fn_part1 (F := F) main_arg4 main_arg5 main_arg6 main_arg7 main_arg8 main_arg9 main_arg10 main_v13 main_v16
-- ==== Kernel.lean ====
abbrev S1024x81920 : Shape := ⟨2, ![1024, 81920]⟩
abbrev S1024x1 : Shape := ⟨2, ![1024, 1]⟩
abbrev S4x81920 : Shape := ⟨2, ![4, 81920]⟩
abbrev S4 : Shape := ⟨1, ![4]⟩
abbrev S8x8 : Shape := ⟨2, ![8, 8]⟩
abbrev S8 : Shape := ⟨1, ![8]⟩
abbrev S1x8 : Shape := ⟨2, ![1, 8]⟩
abbrev S1 : Shape := ⟨1, ![1]⟩
abbrev S256x4096 : Shape := ⟨2, ![256, 4096]⟩
abbrev S4x4096 : Shape := ⟨2, ![4, 4096]⟩
abbrev S256x1 : Shape := ⟨2, ![256, 1]⟩
abbrev S256x4 : Shape := ⟨2, ![256, 4]⟩
abbrev S4096x4 : Shape := ⟨2, ![4096, 4]⟩
abbrev S1x4 : Shape := ⟨2, ![1, 4]⟩
abbrev S8x4 : Shape := ⟨2, ![8, 4]⟩
abbrev S4x8 : Shape := ⟨2, ![4, 8]⟩
abbrev S256x8 : Shape := ⟨2, ![256, 8]⟩
abbrev S8x1 : Shape := ⟨2, ![8, 1]⟩
abbrev S1x1 : Shape := ⟨2, ![1, 1]⟩

abbrev nBuf : Space → Nat
  | .hbm => 12
  | .vmem => 21
  | .smem => 0
  | _ => 0

abbrev bufTy : (tb : Table) → Fin (tcTables nBuf tb) → BufTy
  | .hbm, ⟨0, _⟩ => ⟨S1024x81920, .f32⟩
  | .hbm, ⟨1, _⟩ => ⟨S1024x81920, .f32⟩
  | .hbm, ⟨2, _⟩ => ⟨S1024x1, .f32⟩
  | .hbm, ⟨3, _⟩ => ⟨S1024x1, .f32⟩
  | .hbm, ⟨4, _⟩ => ⟨S1024x1, .f32⟩
  | .hbm, ⟨5, _⟩ => ⟨S4x81920, .f32⟩
  | .hbm, ⟨6, _⟩ => ⟨S4, .f32⟩
  | .hbm, ⟨7, _⟩ => ⟨S8x8, .f32⟩
  | .hbm, ⟨8, _⟩ => ⟨S8, .f32⟩
  | .hbm, ⟨9, _⟩ => ⟨S1x8, .f32⟩
  | .hbm, ⟨10, _⟩ => ⟨S1, .f32⟩
  | .hbm, ⟨11, _⟩ => ⟨S1024x1, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S4x4096, .f32⟩
  | .local _ .vmem, ⟨5, _⟩ => ⟨S4x4096, .f32⟩
  | .local _ .vmem, ⟨6, _⟩ => ⟨S256x1, .f32⟩
  | .local _ .vmem, ⟨7, _⟩ => ⟨S256x1, .f32⟩
  | .local _ .vmem, ⟨8, _⟩ => ⟨S256x1, .f32⟩
  | .local _ .vmem, ⟨9, _⟩ => ⟨S256x1, .f32⟩
  | .local _ .vmem, ⟨10, _⟩ => ⟨S256x1, .f32⟩
  | .local _ .vmem, ⟨11, _⟩ => ⟨S256x1, .f32⟩
  | .local _ .vmem, ⟨12, _⟩ => ⟨S4, .f32⟩
  | .local _ .vmem, ⟨13, _⟩ => ⟨S8x8, .f32⟩
  | .local _ .vmem, ⟨14, _⟩ => ⟨S8, .f32⟩
  | .local _ .vmem, ⟨15, _⟩ => ⟨S1x8, .f32⟩
  | .local _ .vmem, ⟨16, _⟩ => ⟨S1, .f32⟩
  | .local _ .vmem, ⟨17, _⟩ => ⟨S256x1, .f32⟩
  | .local _ .vmem, ⟨18, _⟩ => ⟨S256x1, .f32⟩
  | .local _ .vmem, ⟨19, _⟩ => ⟨S256x4, .f32⟩
  | .local _ .vmem, ⟨20, _⟩ => ⟨S256x4, .f32⟩
  | _, _ => ⟨S1024x81920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![4, 20], ![false, false]⟩

def k0_cond2 (i : grid0.Coords) : BitVec 1 :=
  let arg1 : BitVec 32 := BitVec.ofNat 32 (i 1).val
  let c19_i32 : BitVec 32 := 19#32
  let v22 : BitVec 1 := Scalar.cmpi .eq arg1 c19_i32
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S256x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

class Facts₀ : Prop where
  inb_S256x4_S256x4_0_0 : ∀ a, (![0, 0] : Fin 2 → Nat) a + S256x4.size a ≤ S256x4.size a
  h_S256x4 : 0 < S256x4.numel
  shapeCasts_S256x4_S256x4 : S256x4.ShapeCasts S256x4
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  inb_S4x4096_S4x4096_0_0 : ∀ a, (![0, 0] : Fin 2 → Nat) a + S4x4096.size a ≤ S4x4096.size a
  h_S4x4096 : 0 < S4x4096.numel
  transposes_S4x4096_p1_0_S4096x4 : S4x4096.Transposes [1, 0] S4096x4
  inb_S4_S4_0 : ∀ a, (![0] : Fin 1 → Nat) a + S4.size a ≤ S4.size a
  h_S4 : 0 < S4.numel
  shapeCasts_S4_S1x4 : S4.ShapeCasts S1x4
  broadcasts_S1x4_S256x4 : S1x4.Broadcasts S256x4
  inb_S256x1_S256x1_0_0 : ∀ a, (![0, 0] : Fin 2 → Nat) a + S256x1.size a ≤ S256x1.size a
  h_S256x1 : 0 < S256x1.numel
  broadcasts_S256x1_S256x4 : S256x1.Broadcasts S256x4
  inb_S8x8_S8x8_0_0 : ∀ a, (![0, 0] : Fin 2 → Nat) a + S8x8.size a ≤ S8x8.size a
  h_S8x8 : 0 < S8x8.numel
  slices_S8x8_o0_0_S8x4 : S8x8.Slices ![0, 0] S8x4
  slices_S8x8_o0_4_S8x4 : S8x8.Slices ![0, 4] S8x4
  transposes_S8x4_p1_0_S4x8 : S8x4.Transposes [1, 0] S4x8
  inb_S8_S8_0 : ∀ a, (![0] : Fin 1 → Nat) a + S8.size a ≤ S8.size a
  h_S8 : 0 < S8.numel
  shapeCasts_S8_S1x8 : S8.ShapeCasts S1x8
  broadcasts_S1x8_S256x8 : S1x8.Broadcasts S256x8
  inb_S1x8_S1x8_0_0 : ∀ a, (![0, 0] : Fin 2 → Nat) a + S1x8.size a ≤ S1x8.size a
  h_S1x8 : 0 < S1x8.numel
  transposes_S1x8_p1_0_S8x1 : S1x8.Transposes [1, 0] S8x1
  inb_S1_S1_0 : ∀ a, (![0] : Fin 1 → Nat) a + S1.size a ≤ S1.size a
  h_S1 : 0 < S1.numel
  shapeCasts_S1_S1x1 : S1.ShapeCasts S1x1
  broadcasts_S1x1_S256x1 : S1x1.Broadcasts S256x1
  dot_S256x4096_S4096x4_S256x4_1_0_0_1_n_n_wf : DotDims.WF S256x4096 S4096x4 S256x4 [1] [0] [0] [1] [] []
  dot_S256x4_S4x8_S256x8_1_0_0_1_n_n_wf : DotDims.WF S256x4 S4x8 S256x8 [1] [0] [0] [1] [] []
  dot_S256x8_S8x1_S256x1_1_0_0_1_n_n_wf : DotDims.WF S256x8 S8x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S1024x81920.size a
  hwx0_0 : ∀ i : grid0.Coords, EltTy.bits .f32 = 32 ∨ (Rect.block (s := S1024x81920) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S1024x81920.size a
  hwx0_1 : ∀ i : grid0.Coords, EltTy.bits .f32 = 32 ∨ (Rect.block (s := S1024x81920) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x4096.size a ≤ S4x81920.size a
  hwx0_2 : ∀ i : grid0.Coords, EltTy.bits .f32 = 32 ∨ (Rect.block (s := S4x81920) S4x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S1024x1.size a
  hwx0_3 : ∀ i : grid0.Coords, EltTy.bits .f32 = 32 ∨ (Rect.block (s := S1024x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S1024x1.size a
  hwx0_4 : ∀ i : grid0.Coords, EltTy.bits .f32 = 32 ∨ (Rect.block (s := S1024x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S1024x1.size a
  hwx0_5 : ∀ i : grid0.Coords, EltTy.bits .f32 = 32 ∨ (Rect.block (s := S1024x1) S256x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4.size a ≤ S4.size a
  hwx0_6 : ∀ i : grid0.Coords, EltTy.bits .f32 = 32 ∨ (Rect.block (s := S4) S4.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x8.size a ≤ S8x8.size a
  hwx0_7 : ∀ i : grid0.Coords, EltTy.bits .f32 = 32 ∨ (Rect.block (s := S8x8) S8x8.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8.size a ≤ S8.size a
  hwx0_8 : ∀ i : grid0.Coords, EltTy.bits .f32 = 32 ∨ (Rect.block (s := S8) S8.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x8.size a ≤ S1x8.size a
  hwx0_9 : ∀ i : grid0.Coords, EltTy.bits .f32 = 32 ∨ (Rect.block (s := S1x8) S1x8.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1.size a ≤ S1.size a
  hwx0_10 : ∀ i : grid0.Coords, EltTy.bits .f32 = 32 ∨ (Rect.block (s := S1) S1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x1.size a ≤ S1024x1.size a
  hwx0_11 : ∀ i : grid0.Coords, EltTy.bits .f32 = 32 ∨ (Rect.block (s := S1024x1) S256x1.size (cc0_transform_11 i) (hinb0_11 i)).WholeWords (EltTy.packing .f32)

variable [Facts₀]

def dot_S256x4096_S4096x4_S256x4_1_0_0_1_n_n : DotDims S256x4096 S4096x4 S256x4 where
  lhsContracting := [1]
  rhsContracting := [0]
  lhsNonContracting := [0]
  rhsNonContracting := [1]
  lhsBatch := []
  rhsBatch := []
  wf := dot_S256x4096_S4096x4_S256x4_1_0_0_1_n_n_wf
def dot_S256x4_S4x8_S256x8_1_0_0_1_n_n : DotDims S256x4 S4x8 S256x8 where
  lhsContracting := [1]
  rhsContracting := [0]
  lhsNonContracting := [0]
  rhsNonContracting := [1]
  lhsBatch := []
  rhsBatch := []
  wf := dot_S256x4_S4x8_S256x8_1_0_0_1_n_n_wf
def dot_S256x8_S8x1_S256x1_1_0_0_1_n_n : DotDims S256x8 S8x1 S256x1 where
  lhsContracting := [1]
  rhsContracting := [0]
  lhsNonContracting := [0]
  rhsNonContracting := [1]
  lhsBatch := []
  rhsBatch := []
  wf := dot_S256x8_S8x1_S256x1_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S4x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S256x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S4.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S8x8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S8.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1x8.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0) S256x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k0_cond2 i == 1#1) | ⟨_ + 12, h⟩ => absurd h (Nat.not_lt.2 (Nat.le_add_left _ _))

class Facts : Prop extends Facts₀ where

variable [Facts]
-- ==== ReferenceIdeal.lean ====
abbrev S1024x81920 : Shape := ⟨2, ![1024, 81920]⟩
abbrev S1024x1 : Shape := ⟨2, ![1024, 1]⟩
abbrev S4x81920 : Shape := ⟨2, ![4, 81920]⟩
abbrev S4 : Shape := ⟨1, ![4]⟩
abbrev S8x8 : Shape := ⟨2, ![8, 8]⟩
abbrev S8 : Shape := ⟨1, ![8]⟩
abbrev S1x8 : Shape := ⟨2, ![1, 8]⟩
abbrev S1 : Shape := ⟨1, ![1]⟩
abbrev S81920x4 : Shape := ⟨2, ![81920, 4]⟩
abbrev S1024x4 : Shape := ⟨2, ![1024, 4]⟩
abbrev S1x4 : Shape := ⟨2, ![1, 4]⟩
abbrev S1024x8 : Shape := ⟨2, ![1024, 8]⟩
abbrev S_ : Shape := ⟨0, ![]⟩
abbrev S8x1 : Shape := ⟨2, ![8, 1]⟩
abbrev S1x1 : Shape := ⟨2, ![1, 1]⟩

abbrev nBuf : Space → Nat
  | .hbm => 90
  | .vmem => 0
  | .smem => 0
  | _ => 0

abbrev bufTy : (tb : Table) → Fin (tcTables nBuf tb) → BufTy
  | .hbm, ⟨0, _⟩ => ⟨S1024x81920, .f32⟩
  | .hbm, ⟨1, _⟩ => ⟨S1024x81920, .f32⟩
  | .hbm, ⟨2, _⟩ => ⟨S1024x1, .f32⟩
  | .hbm, ⟨3, _⟩ => ⟨S1024x1, .f32⟩
  | .hbm, ⟨4, _⟩ => ⟨S1024x1, .f32⟩
  | .hbm, ⟨5, _⟩ => ⟨S4x81920, .f32⟩
  | .hbm, ⟨6, _⟩ => ⟨S4, .f32⟩
  | .hbm, ⟨7, _⟩ => ⟨S8x8, .f32⟩
  | .hbm, ⟨8, _⟩ => ⟨S8, .f32⟩
  | .hbm, ⟨9, _⟩ => ⟨S1x8, .f32⟩
  | .hbm, ⟨10, _⟩ => ⟨S1, .f32⟩
  | .hbm, ⟨11, _⟩ => ⟨S81920x4, .f32⟩
  | .hbm, ⟨12, _⟩ => ⟨S1024x4, .f32⟩
  | .hbm, ⟨13, _⟩ => ⟨S1x4, .f32⟩
  | .hbm, ⟨14, _⟩ => ⟨S1024x4, .f32⟩
  | .hbm, ⟨15, _⟩ => ⟨S1024x4, .f32⟩
  | .hbm, ⟨16, _⟩ => ⟨S81920x4, .f32⟩
  | .hbm, ⟨17, _⟩ => ⟨S1024x4, .f32⟩
  | .hbm, ⟨18, _⟩ => ⟨S1x4, .f32⟩
  | .hbm, ⟨19, _⟩ => ⟨S1024x4, .f32⟩
  | .hbm, ⟨20, _⟩ => ⟨S1024x4, .f32⟩
  | .hbm, ⟨21, _⟩ => ⟨S1024x8, .f32⟩
  | .hbm, ⟨22, _⟩ => ⟨S1024x8, .f32⟩
  | .hbm, ⟨23, _⟩ => ⟨S1024x8, .f32⟩
  | .hbm, ⟨24, _⟩ => ⟨S_, .f32⟩
  | .hbm, ⟨25, _⟩ => ⟨S1024x1, .f32⟩
  | .hbm, ⟨26, _⟩ => ⟨S1024x1, .f32⟩
  | .hbm, ⟨27, _⟩ => ⟨S1024x8, .f32⟩
  | .hbm, ⟨28, _⟩ => ⟨S1024x8, .f32⟩
  | .hbm, ⟨29, _⟩ => ⟨S1024x8, .f32⟩
  | .hbm, ⟨30, _⟩ => ⟨S1024x8, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S1024x8, .f32⟩
  | .hbm, ⟨35, _⟩ => ⟨S1024x8, .f32⟩
  | .hbm, ⟨36, _⟩ => ⟨S_, .f32⟩
  | .hbm, ⟨37, _⟩ => ⟨S1024x8, .f32⟩
  | .hbm, ⟨38, _⟩ => ⟨S1024x8, .f32⟩
  | .hbm, ⟨39, _⟩ => ⟨S8x8, .f32⟩
  | .hbm, ⟨40, _⟩ => ⟨S1024x8, .f32⟩
  | .hbm, ⟨41, _⟩ => ⟨S1x8, .f32⟩
  | .hbm, ⟨42, _⟩ => ⟨S1024x8, .f32⟩
  | .hbm, ⟨43, _⟩ => ⟨S1024x8, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S1024x8, .f32⟩
  | .hbm, ⟨48, _⟩ => ⟨S1024x8, .f32⟩
  | .hbm, ⟨49, _⟩ => ⟨S_, .f32⟩
  | .hbm, ⟨50, _⟩ => ⟨S1024x8, .f32⟩
  | .hbm, ⟨51, _⟩ => ⟨S1024x8, .f32⟩
  | .hbm, ⟨52, _⟩ => ⟨S8x1, .f32⟩
  | .hbm, ⟨53, _⟩ => ⟨S1024x1, .f32⟩
  | .hbm, ⟨54, _⟩ => ⟨S1x1, .f32⟩
  | .hbm, ⟨55, _⟩ => ⟨S1024x1, .f32⟩
  | .hbm, ⟨56, _⟩ => ⟨S1024x1, .f32⟩
  | .hbm, ⟨57, _⟩ => ⟨S_, .f32⟩
  | .hbm, ⟨58, _⟩ => ⟨S1024x1, .f32⟩
  | .hbm, ⟨59, _⟩ => ⟨S1024x1, .f32⟩
  | .hbm, ⟨60, _⟩ => ⟨S1024x1, .f32⟩
  | .hbm, ⟨61, _⟩ => ⟨S1024x1, .f32⟩
  | .hbm, ⟨62, _⟩ => ⟨S_, .f32⟩
  | .hbm, ⟨63, _⟩ => ⟨S1024x1, .f32⟩
  | .hbm, ⟨64, _⟩ => ⟨S1024x1, .f32⟩
  | .hbm, ⟨65, _⟩ => ⟨S_, .f32⟩
  | .hbm, ⟨66, _⟩ => ⟨S1024x1, .f32⟩
  | .hbm, ⟨67, _⟩ => ⟨S1024x1, .f32⟩
  | .hbm, ⟨68, _⟩ => ⟨S_, .f32⟩
  | .hbm, ⟨69, _⟩ => ⟨S1024x1, .f32⟩
  | .hbm, ⟨70, _⟩ => ⟨S1024x1, .f32⟩
  | .hbm, ⟨71, _⟩ => ⟨S1024x1, .f32⟩
  | .hbm, ⟨72, _⟩ => ⟨S1024x1, .f32⟩
  | .hbm, ⟨73, _⟩ => ⟨S_, .f32⟩
  | .hbm, ⟨74, _⟩ => ⟨S1024x1, .f32⟩
  | .hbm, ⟨75, _⟩ => ⟨S1024x1, .f32⟩
  | .hbm, ⟨76, _⟩ => ⟨S_, .f32⟩
  | .hbm, ⟨77, _⟩ => ⟨S1024x1, .f32⟩
  | .hbm, ⟨78, _⟩ => ⟨S1024x1, .f32⟩
  | .hbm, ⟨79, _⟩ => ⟨S1024x1, .f32⟩
  | .hbm, ⟨80, _⟩ => ⟨S1024x1, .f32⟩
  | .hbm, ⟨81, _⟩ => ⟨S1024x1, .f32⟩
  | .hbm, ⟨82, _⟩ => ⟨S1024x1, .f32⟩
  | .hbm, ⟨83, _⟩ => ⟨S_, .f32⟩
  | .hbm, ⟨84, _⟩ => ⟨S1024x1, .f32⟩
  | .hbm, ⟨85, _⟩ => ⟨S1024x1, .f32⟩
  | .hbm, ⟨86, _⟩ => ⟨S_, .f32⟩
  | .hbm, ⟨87, _⟩ => ⟨S1024x1, .f32⟩
  | .hbm, ⟨88, _⟩ => ⟨S1024x1, .f32⟩
  | .hbm, ⟨89, _⟩ => ⟨S1024x1, .f32⟩
  | _, _ => ⟨S1024x81920, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_0 : Ref sig .tc := ⟨.hbm, 31, rfl⟩
abbrev main_cst_1 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_2 : Ref sig .tc := ⟨.hbm, 44, rfl⟩
abbrev main_cst_3 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_4 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_cst_6 : Ref sig .tc := ⟨.hbm, 65, rfl⟩
abbrev main_v37 : Ref sig .tc := ⟨.hbm, 66, rfl⟩
abbrev main_v38 : Ref sig .tc := ⟨.hbm, 67, rfl⟩
abbrev main_cst_7 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_8 : Ref sig .tc := ⟨.hbm, 73, rfl⟩
abbrev main_v43 : Ref sig .tc := ⟨.hbm, 74, rfl⟩
abbrev main_v44 : Ref sig .tc := ⟨.hbm, 75, rfl⟩
abbrev main_cst_9 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_10 : Ref sig .tc := ⟨.hbm, 83, rfl⟩
abbrev main_v51 : Ref sig .tc := ⟨.hbm, 84, rfl⟩
abbrev main_v52 : Ref sig .tc := ⟨.hbm, 85, rfl⟩
abbrev main_cst_11 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩

abbrev nD : Nat := 1
abbrev τ : Topo := Topo.v7x

variable {F : FTy → Type} [FloatOps F]

class Facts₀ : Prop where
  transposes_S4x81920_S81920x4_1_0 : S4x81920.Transposes [1, 0] S81920x4
  bcast_S4_S1x4_1 : S4.BroadcastsInDim S1x4 (![1] : Fin 1 → Fin S1x4.rank)
  bcast_S1x4_S1024x4_0_1 : S1x4.BroadcastsInDim S1024x4 (![0, 1] : Fin 2 → Fin S1024x4.rank)
  concatenates_S1024x4_S1024x4_S1024x8_d1 : Shape.Concatenates [S1024x4, S1024x4] S1024x8 1
  bcast_S1024x1_S1024x8_0_1 : S1024x1.BroadcastsInDim S1024x8 (![0, 1] : Fin 2 → Fin S1024x8.rank)
  bcast_S_S1024x1 : S_.BroadcastsInDim S1024x1 (![] : Fin 0 → Fin S1024x1.rank)
  bcast_S_S1024x8 : S_.BroadcastsInDim S1024x8 (![] : Fin 0 → Fin S1024x8.rank)
  transposes_S8x8_S8x8_1_0 : S8x8.Transposes [1, 0] S8x8
  bcast_S8_S1x8_1 : S8.BroadcastsInDim S1x8 (![1] : Fin 1 → Fin S1x8.rank)
  bcast_S1x8_S1024x8_0_1 : S1x8.BroadcastsInDim S1024x8 (![0, 1] : Fin 2 → Fin S1024x8.rank)
  transposes_S1x8_S8x1_1_0 : S1x8.Transposes [1, 0] S8x1
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  dot_S1024x81920_S81920x4_S1024x4_1_0_0_1_n_n_wf : DotDims.WF S1024x81920 S81920x4 S1024x4 [1] [0] [0] [1] [] []
  dot_S1024x8_S8x8_S1024x8_1_0_0_1_n_n_wf : DotDims.WF S1024x8 S8x8 S1024x8 [1] [0] [0] [1] [] []
  dot_S1024x8_S8x1_S1024x1_1_0_0_1_n_n_wf : DotDims.WF S1024x8 S8x1 S1024x1 [1] [0] [0] [1] [] []

variable [Facts₀]

def dot_S1024x81920_S81920x4_S1024x4_1_0_0_1_n_n : DotDims S1024x81920 S81920x4 S1024x4 where
  lhsContracting := [1]
  rhsContracting := [0]
  lhsNonContracting := [0]
  rhsNonContracting := [1]
  lhsBatch := []
  rhsBatch := []
  wf := dot_S1024x81920_S81920x4_S1024x4_1_0_0_1_n_n_wf
def dot_S1024x8_S8x8_S1024x8_1_0_0_1_n_n : DotDims S1024x8 S8x8 S1024x8 where
  lhsContracting := [1]
  rhsContracting := [0]
  lhsNonContracting := [0]
  rhsNonContracting := [1]
  lhsBatch := []
  rhsBatch := []
  wf := dot_S1024x8_S8x8_S1024x8_1_0_0_1_n_n_wf
def dot_S1024x8_S8x1_S1024x1_1_0_0_1_n_n : DotDims S1024x8 S8x1 S1024x1 where
  lhsContracting := [1]
  rhsContracting := [0]
  lhsNonContracting := [0]
  rhsNonContracting := [1]
  lhsBatch := []
  rhsBatch := []
  wf := dot_S1024x8_S8x1_S1024x1_1_0_0_1_n_n_wf

class Facts : Prop extends Facts₀ where

variable [Facts]
-- ==== Proof.Pieces.lean ====
/-
  What each control case of the kernel body leaves in the two feature accumulators and in the output block, as
  the body's own arithmetic terms: the first point of a row block's run zeroes the accumulators and adds the
  first feature chunk's products; every later point adds its chunk's to what the point before left; the last
  point also evaluates the small network and the loss from the finished accumulators.
-/
import proofs.«148360_j16990890623528_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

/-- The all-zero offset of a rank-2 block. -/
private theorem hz : (![0, 0] : Fin 2 → Nat) = fun _ => 0 := funext fun a => by fin_cases a <;> rfl

/-- The all-zero offset of a rank-1 block. -/
private theorem hz1 : (![0] : Fin 1 → Nat) = fun _ => 0 := funext fun a => by fin_cases a <;> rfl

/-- First point of a run: the white accumulator is the zero block plus the chunk's products. -/
theorem accW_first (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S4x4096 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S4 .f32) (harg8 : arg8.IsWhole) (arg9 : Memref sig .tc .vmem S8x8 .f32) (harg9 : arg9.IsWhole) (arg10 : Memref sig .tc .vmem S8 .f32) (harg10 : arg10.IsWhole) (arg11 : Memref sig .tc .vmem S1x8 .f32) (harg11 : arg11.IsWhole) (arg12 : Memref sig .tc .vmem S1 .f32) (harg12 : arg12.IsWhole) (arg13 : Memref sig .tc .vmem S256x1 .f32) (harg13 : arg13.IsWhole) (arg14 : Memref sig .tc .vmem S256x4 .f32) (harg14 : arg14.IsWhole) (arg15 : Memref sig .tc .vmem S256x4 .f32) (harg15 : arg15.IsWhole) (hc0 : cond0_0 i) (hc1 : ¬cond0_1 i)
    (x0 : Vec F S256x4096 .f32) (x1 : Vec F S256x4096 .f32) (x2 : Vec F S4x4096 .f32) (x3 : Vec F S256x1 .f32) (x4 : Vec F S256x1 .f32) (x5 : Vec F S256x1 .f32) (x6 : Vec F S4 .f32) (x7 : Vec F S8x8 .f32) (x8 : Vec F S8 .f32) (x9 : Vec F S1x8 .f32) (x10 : Vec F S1 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 = k0_pay4 x0 x2 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10)]
  unfold kernelRun0_A
  dsimp only
  sl_unfold_words
  rw [View.canon_cons_unit_zero (S := S256x4) hz, View.readCov_unit_zero (S := S256x4) _ hz]
  simp only [View.readAt_eq_ld, harg2.read_unread, harg3.read_unread, harg4.read_unread,
    View.ld_unit_zero (S := S256x4096) hz, View.ld_unit_zero (S := S4x4096) hz, shapeCast_self]

/-- First point of a run: the black accumulator likewise. -/
theorem accB_first (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S4x4096 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S4 .f32) (harg8 : arg8.IsWhole) (arg9 : Memref sig .tc .vmem S8x8 .f32) (harg9 : arg9.IsWhole) (arg10 : Memref sig .tc .vmem S8 .f32) (harg10 : arg10.IsWhole) (arg11 : Memref sig .tc .vmem S1x8 .f32) (harg11 : arg11.IsWhole) (arg12 : Memref sig .tc .vmem S1 .f32) (harg12 : arg12.IsWhole) (arg13 : Memref sig .tc .vmem S256x1 .f32) (harg13 : arg13.IsWhole) (arg14 : Memref sig .tc .vmem S256x4 .f32) (harg14 : arg14.IsWhole) (arg15 : Memref sig .tc .vmem S256x4 .f32) (harg15 : arg15.IsWhole) (hc0 : cond0_0 i) (hc1 : ¬cond0_1 i)
    (x0 : Vec F S256x4096 .f32) (x1 : Vec F S256x4096 .f32) (x2 : Vec F S4x4096 .f32) (x3 : Vec F S256x1 .f32) (x4 : Vec F S256x1 .f32) (x5 : Vec F S256x1 .f32) (x6 : Vec F S4 .f32) (x7 : Vec F S8x8 .f32) (x8 : Vec F S8 .f32) (x9 : Vec F S1x8 .f32) (x10 : Vec F S1 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 = k0_pay5 x1 x2 (k0_pay2 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10)]
  unfold kernelRun0_A
  dsimp only
  sl_unfold_words
  rw [View.canon_cons_unit_zero (S := S256x4) hz, View.readCov_unit_zero (S := S256x4) _ hz]
  simp only [View.readAt_eq_ld, harg2.read_unread, harg3.read_unread, harg4.read_unread,
    View.ld_unit_zero (S := S256x4096) hz, View.ld_unit_zero (S := S4x4096) hz, shapeCast_self]

/-- A middle point: the white accumulator is what the point before left plus the chunk's products. -/
theorem accW_mid (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S4x4096 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S4 .f32) (harg8 : arg8.IsWhole) (arg9 : Memref sig .tc .vmem S8x8 .f32) (harg9 : arg9.IsWhole) (arg10 : Memref sig .tc .vmem S8 .f32) (harg10 : arg10.IsWhole) (arg11 : Memref sig .tc .vmem S1x8 .f32) (harg11 : arg11.IsWhole) (arg12 : Memref sig .tc .vmem S1 .f32) (harg12 : arg12.IsWhole) (arg13 : Memref sig .tc .vmem S256x1 .f32) (harg13 : arg13.IsWhole) (arg14 : Memref sig .tc .vmem S256x4 .f32) (harg14 : arg14.IsWhole) (arg15 : Memref sig .tc .vmem S256x4 .f32) (harg15 : arg15.IsWhole) (hc0 : ¬cond0_0 i) (hc1 : ¬cond0_1 i)
    (x0 : Vec F S256x4096 .f32) (x1 : Vec F S256x4096 .f32) (x2 : Vec F S4x4096 .f32) (x3 : Vec F S256x1 .f32) (x4 : Vec F S256x1 .f32) (x5 : Vec F S256x1 .f32) (x6 : Vec F S4 .f32) (x7 : Vec F S8x8 .f32) (x8 : Vec F S8 .f32) (x9 : Vec F S1x8 .f32) (x10 : Vec F S1 .f32) (xs0 : Vec F S256x4 .f32) (xs1 : Vec F S256x4 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = k0_pay4 x0 x2 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun0_B
  dsimp only
  rw [View.canon_unit_zero hz]
  simp only [View.readAt_eq_ld, harg2.read_unread, harg3.read_unread, harg4.read_unread, harg14.read_unread, harg15.read_unread,
    View.ld_unit_zero (S := S256x4096) hz, View.ld_unit_zero (S := S4x4096) hz, View.ld_unit_zero (S := S256x4) hz, shapeCast_self]

/-- A middle point: the black accumulator likewise. -/
theorem accB_mid (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S4x4096 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S4 .f32) (harg8 : arg8.IsWhole) (arg9 : Memref sig .tc .vmem S8x8 .f32) (harg9 : arg9.IsWhole) (arg10 : Memref sig .tc .vmem S8 .f32) (harg10 : arg10.IsWhole) (arg11 : Memref sig .tc .vmem S1x8 .f32) (harg11 : arg11.IsWhole) (arg12 : Memref sig .tc .vmem S1 .f32) (harg12 : arg12.IsWhole) (arg13 : Memref sig .tc .vmem S256x1 .f32) (harg13 : arg13.IsWhole) (arg14 : Memref sig .tc .vmem S256x4 .f32) (harg14 : arg14.IsWhole) (arg15 : Memref sig .tc .vmem S256x4 .f32) (harg15 : arg15.IsWhole) (hc0 : ¬cond0_0 i) (hc1 : ¬cond0_1 i)
    (x0 : Vec F S256x4096 .f32) (x1 : Vec F S256x4096 .f32) (x2 : Vec F S4x4096 .f32) (x3 : Vec F S256x1 .f32) (x4 : Vec F S256x1 .f32) (x5 : Vec F S256x1 .f32) (x6 : Vec F S4 .f32) (x7 : Vec F S8x8 .f32) (x8 : Vec F S8 .f32) (x9 : Vec F S1x8 .f32) (x10 : Vec F S1 .f32) (xs0 : Vec F S256x4 .f32) (xs1 : Vec F S256x4 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = k0_pay5 x1 x2 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun0_B
  dsimp only
  rw [View.canon_unit_zero hz]
  simp only [View.readAt_eq_ld, harg2.read_unread, harg3.read_unread, harg4.read_unread, harg14.read_unread, harg15.read_unread,
    View.ld_unit_zero (S := S256x4096) hz, View.ld_unit_zero (S := S4x4096) hz, View.ld_unit_zero (S := S256x4) hz, shapeCast_self]

/-- The last point: the white accumulator, updated as at a middle point. -/
theorem accW_last (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S4x4096 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S4 .f32) (harg8 : arg8.IsWhole) (arg9 : Memref sig .tc .vmem S8x8 .f32) (harg9 : arg9.IsWhole) (arg10 : Memref sig .tc .vmem S8 .f32) (harg10 : arg10.IsWhole) (arg11 : Memref sig .tc .vmem S1x8 .f32) (harg11 : arg11.IsWhole) (arg12 : Memref sig .tc .vmem S1 .f32) (harg12 : arg12.IsWhole) (arg13 : Memref sig .tc .vmem S256x1 .f32) (harg13 : arg13.IsWhole) (arg14 : Memref sig .tc .vmem S256x4 .f32) (harg14 : arg14.IsWhole) (arg15 : Memref sig .tc .vmem S256x4 .f32) (harg15 : arg15.IsWhole) (hc0 : ¬cond0_0 i) (hc1 : cond0_1 i)
    (x0 : Vec F S256x4096 .f32) (x1 : Vec F S256x4096 .f32) (x2 : Vec F S4x4096 .f32) (x3 : Vec F S256x1 .f32) (x4 : Vec F S256x1 .f32) (x5 : Vec F S256x1 .f32) (x6 : Vec F S4 .f32) (x7 : Vec F S8x8 .f32) (x8 : Vec F S8 .f32) (x9 : Vec F S1x8 .f32) (x10 : Vec F S1 .f32) (xs0 : Vec F S256x4 .f32) (xs1 : Vec F S256x4 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = k0_pay4 x0 x2 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun0_C
  dsimp only
  sl_unfold_words
  rw [View.canon_unit_zero hz]
  simp only [View.readAt_eq_ld, harg2.read_unread, harg3.read_unread, harg4.read_unread, harg14.read_unread, harg15.read_unread,
    View.ld_unit_zero (S := S256x4096) hz, View.ld_unit_zero (S := S4x4096) hz, View.ld_unit_zero (S := S256x4) hz, shapeCast_self]

/-- The last point: the black accumulator likewise. -/
theorem accB_last (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S4x4096 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S4 .f32) (harg8 : arg8.IsWhole) (arg9 : Memref sig .tc .vmem S8x8 .f32) (harg9 : arg9.IsWhole) (arg10 : Memref sig .tc .vmem S8 .f32) (harg10 : arg10.IsWhole) (arg11 : Memref sig .tc .vmem S1x8 .f32) (harg11 : arg11.IsWhole) (arg12 : Memref sig .tc .vmem S1 .f32) (harg12 : arg12.IsWhole) (arg13 : Memref sig .tc .vmem S256x1 .f32) (harg13 : arg13.IsWhole) (arg14 : Memref sig .tc .vmem S256x4 .f32) (harg14 : arg14.IsWhole) (arg15 : Memref sig .tc .vmem S256x4 .f32) (harg15 : arg15.IsWhole) (hc0 : ¬cond0_0 i) (hc1 : cond0_1 i)
    (x0 : Vec F S256x4096 .f32) (x1 : Vec F S256x4096 .f32) (x2 : Vec F S4x4096 .f32) (x3 : Vec F S256x1 .f32) (x4 : Vec F S256x1 .f32) (x5 : Vec F S256x1 .f32) (x6 : Vec F S4 .f32) (x7 : Vec F S8x8 .f32) (x8 : Vec F S8 .f32) (x9 : Vec F S1x8 .f32) (x10 : Vec F S1 .f32) (xs0 : Vec F S256x4 .f32) (xs1 : Vec F S256x4 .f32) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = k0_pay5 x1 x2 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun0_C
  dsimp only
  sl_unfold_words
  rw [View.canon_unit_zero hz]
  simp only [View.readAt_eq_ld, harg2.read_unread, harg3.read_unread, harg4.read_unread, harg14.read_unread, harg15.read_unread,
    View.ld_unit_zero (S := S256x4096) hz, View.ld_unit_zero (S := S4x4096) hz, View.ld_unit_zero (S := S256x4) hz, shapeCast_self]

/-- The last point: the output block is the loss evaluated from the two UPDATED accumulators. -/
theorem out_last (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S4x4096 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S4 .f32) (harg8 : arg8.IsWhole) (arg9 : Memref sig .tc .vmem S8x8 .f32) (harg9 : arg9.IsWhole) (arg10 : Memref sig .tc .vmem S8 .f32) (harg10 : arg10.IsWhole) (arg11 : Memref sig .tc .vmem S1x8 .f32) (harg11 : arg11.IsWhole) (arg12 : Memref sig .tc .vmem S1 .f32) (harg12 : arg12.IsWhole) (arg13 : Memref sig .tc .vmem S256x1 .f32) (harg13 : arg13.IsWhole) (arg14 : Memref sig .tc .vmem S256x4 .f32) (harg14 : arg14.IsWhole) (arg15 : Memref sig .tc .vmem S256x4 .f32) (harg15 : arg15.IsWhole) (hc0 : ¬cond0_0 i) (hc1 : cond0_1 i)
    (x0 : Vec F S256x4096 .f32) (x1 : Vec F S256x4096 .f32) (x2 : Vec F S4x4096 .f32) (x3 : Vec F S256x1 .f32) (x4 : Vec F S256x1 .f32) (x5 : Vec F S256x1 .f32) (x6 : Vec F S4 .f32) (x7 : Vec F S8x8 .f32) (x8 : Vec F S8 .f32) (x9 : Vec F S1x8 .f32) (x10 : Vec F S1 .f32) (xs0 : Vec F S256x4 .f32) (xs1 : Vec F S256x4 .f32) :
    out0_C_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = k0_pay6 (k0_pay9 (k0_pay4 x0 x2 xs0) x6 (k0_pay5 x1 x2 xs1) x6 x3 x7) (k0_pay10 (k0_pay4 x0 x2 xs0) x6 (k0_pay5 x1 x2 xs1) x6 x3) (k0_pay11 x7) x8 x9 x10 x4 x5 := by
  unfold out0_C_11
  rw [View.read_writes_eq_canon _ _ _ (cover0_C_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun0_C
  dsimp only
  sl_unfold_words
  rw [View.canon_unit_zero hz]
  simp only [View.readAt_eq_ld, harg2.read_unread, harg3.read_unread, harg4.read_unread, harg5.read_unread, harg6.read_unread,
    harg7.read_unread, harg8.read_unread, harg9.read_unread, harg10.read_unread, harg11.read_unread, harg12.read_unread,
    harg14.read_unread, harg15.read_unread, View.readCov_unit_zero (S := S256x4) _ hz,
    View.ld_unit_zero (S := S256x4096) hz, View.ld_unit_zero (S := S4x4096) hz, View.ld_unit_zero (S := S256x4) hz,
    View.ld_unit_zero (S := S256x1) hz, View.ld_unit_zero (S := S8x8) hz, View.ld_unit_zero (S := S1x8) hz,
    View.ld_unit_zero (S := S4) hz1, View.ld_unit_zero (S := S8) hz1, View.ld_unit_zero (S := S1) hz1, shapeCast_self]

end Cert.KernelIdeal.Pieces

end
-- ==== Proof.Spec.lean ====
/-
  The function both programs compute, one batch row at a time (an NNUE-style evaluation and its loss), stated
  over the whole argument arrays at the extended reals.

  For a row R: each perspective's feature sum  w_j = (Σ_k white[R,k]·W0[j,k]) + b0[j]  and  b_j  likewise from the
  black features (j < 4); the side to move t = turn[R] mixes them, h1_j = t·w_j + (1 − t)·b_j and
  h2_j = t·b_j + (1 − t)·w_j; both halves are clipped to [0, 1]; the second layer is
  y_n = clip01 ((Σ_j c(h1_j)·W1[n,j] + Σ_j c(h2_j)·W1[n,4+j]) + b1[n]) (n < 8); the evaluation is
  e = (Σ_n y_n·W2[0,n]) + b2[0]; and the loss is 1·(σ(e/400) − σ(score/400))² + 0·(σ(e/400) − result)², with
  σ(x) = 1 / (1 + exp(−x)).
-/
import Idealize.ShloMosaic.PureOps.Ideal
import Idealize.ShloMosaic.PureOps.Ideal.Laws
import Idealize.ShloMosaic.Lib.ValueIdx

noncomputable section

open scoped BigOperators

namespace Cert.Nnue

open Idealize.ShloMosaic Idealize.ShloMosaic.ValueIdx

/-- The float words the two programs spell, as the extended reals they denote: 1.0, 0.0 and the scaling 400.0. -/
abbrev one : EReal := Ideal.ofBits .f32 0x3F800000#32
abbrev zero : EReal := Ideal.ofBits .f32 0x00000000#32
abbrev scale : EReal := Ideal.ofBits .f32 0x43C80000#32

/-- One perspective's feature sum for row `R` and hidden unit `j`: the row of `X` against row `j` of `W0`, plus the bias. -/
def ft (X : FVec Ideal ⟨2, ![1024, 81920]⟩ .f32) (W0 : FVec Ideal ⟨2, ![4, 81920]⟩ .f32) (b0 : FVec Ideal ⟨1, ![4]⟩ .f32)
    (R : Fin 1024) (j : Fin 4) : EReal :=
  (∑ k : Fin 81920, X (ix2 R k) * W0 (ix2 j k)) + b0 (ix1 j)

/-- Clipping to the unit interval. -/
def clip01 (x : EReal) : EReal := min one (max zero x)

/-- The side to move `t` weighs `u`, its complement weighs `v`. -/
def mix (t u v : EReal) : EReal := t * u + (one - t) * v

/-- The second layer's unit `n`, before clipping, from the two clipped halves of the first. -/
def layer2 (a b : Fin 4 → EReal) (W1 : FVec Ideal ⟨2, ![8, 8]⟩ .f32) (b1 : FVec Ideal ⟨1, ![8]⟩ .f32) (n : Fin 8) : EReal :=
  ((∑ j : Fin 4, a j * W1 (ix2 n (⟨j.val, by omega⟩ : Fin 8))) + ∑ j : Fin 4, b j * W1 (ix2 n (⟨j.val + 4, by omega⟩ : Fin 8)))
    + b1 (ix1 n)

/-- The evaluation from the second layer's clipped units. -/
def evalOf (y : Fin 8 → EReal) (W2 : FVec Ideal ⟨2, ![1, 8]⟩ .f32) (b2 : FVec Ideal ⟨1, ![1]⟩ .f32) : EReal :=
  (∑ n : Fin 8, y n * W2 (ix2 (0 : Fin 1) n)) + b2 (ix1 (0 : Fin 1))

/-- The logistic function as the reference spells it, over the programs' word for 1. -/
def sig (x : EReal) : EReal := Ideal.div one (one + Ideal.exp (-x))

/-- The loss from an evaluation, a score and a game result. -/
def lossOf (e sc res : EReal) : EReal :=
  one * ((sig (Ideal.div e scale) - sig (Ideal.div sc scale)) * (sig (Ideal.div e scale) - sig (Ideal.div sc scale)))
    + zero * ((sig (Ideal.div e scale) - res) * (sig (Ideal.div e scale) - res))

/-- A row's loss from its two feature sums `w`, `b` (the biases included), its side to move, score and result. -/
def rowLoss (w b : Fin 4 → EReal) (t sc res : EReal) (W1 : FVec Ideal ⟨2, ![8, 8]⟩ .f32) (b1 : FVec Ideal ⟨1, ![8]⟩ .f32)
    (W2 : FVec Ideal ⟨2, ![1, 8]⟩ .f32) (b2 : FVec Ideal ⟨1, ![1]⟩ .f32) : EReal :=
  lossOf (evalOf (fun n => clip01 (layer2 (fun j => clip01 (mix t (w j) (b j))) (fun j => clip01 (mix t (b j) (w j))) W1 b1 n)) W2 b2)
    sc res

/-- THE RESULT ARRAY [1024, 1] as one function of the eleven argument arrays. -/
def G (Xw Xb : FVec Ideal ⟨2, ![1024, 81920]⟩ .f32) (turn score result : FVec Ideal ⟨2, ![1024, 1]⟩ .f32)
    (W0 : FVec Ideal ⟨2, ![4, 81920]⟩ .f32) (b0 : FVec Ideal ⟨1, ![4]⟩ .f32) (W1 : FVec Ideal ⟨2, ![8, 8]⟩ .f32)
    (b1 : FVec Ideal ⟨1, ![8]⟩ .f32) (W2 : FVec Ideal ⟨2, ![1, 8]⟩ .f32) (b2 : FVec Ideal ⟨1, ![1]⟩ .f32) :
    FVec Ideal ⟨2, ![1024, 1]⟩ .f32 := fun i =>
  rowLoss (ft Xw W0 b0 ⟨(i 0).val, idx2_lt0 i⟩) (ft Xb W0 b0 ⟨(i 0).val, idx2_lt0 i⟩)
    (turn (ix2 (⟨(i 0).val, idx2_lt0 i⟩ : Fin 1024) (0 : Fin 1))) (score (ix2 (⟨(i 0).val, idx2_lt0 i⟩ : Fin 1024) (0 : Fin 1)))
    (result (ix2 (⟨(i 0).val, idx2_lt0 i⟩ : Fin 1024) (0 : Fin 1))) W1 b1 W2 b2

/-- The word 1.0 denotes the real one. -/
theorem one_eq : one = 1 := by
  simp [one, Ideal.ofBits, Ideal.ieee, -EReal.coe_mul]; norm_num

/-- The word 0.0 denotes zero. -/
theorem zero_eq : zero = 0 := Ideal.ofBits_zero_f32

/-- The operation the kernel's logistic unit denotes is `sig`. -/
theorem logistic_eq_sig (x : EReal) : Ideal.logistic x = sig x := by
  unfold sig Ideal.logistic
  rw [one_eq]

/-- A sum over eight as the sums over its two halves of four. -/
theorem sum8_halves (f : Fin 8 → EReal) :
    ∑ j : Fin 8, f j = (∑ j : Fin 4, f (⟨j.val, by omega⟩ : Fin 8)) + ∑ j : Fin 4, f (⟨j.val + 4, by omega⟩ : Fin 8) := by
  rw [Fin.sum_univ_eight, Fin.sum_univ_four, Fin.sum_univ_four]
  simp only [add_assoc]
  rfl

end Cert.Nnue

end
-- ==== Proof.PayIdx.lean ====
/-
  The kernel body's arithmetic read at one entry, over the extended reals: an accumulator step adds the chunk's
  4096 products to the entry it finds; the last point's output entry for a row is that row's loss (Spec's
  `rowLoss`) of the two accumulator rows plus the bias.
-/
import proofs.«148360_j16990890623528_1_alg».proof.Proof.Gen.KernelIdeal.Skeleton
import proofs.«148360_j16990890623528_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.PayIdx

open Cert.KernelIdeal Cert.KernelIdeal.Gen Idealize.ShloMosaic Idealize.ShloMosaic.ValueIdx

/-- The zero block the white accumulator is reset to. -/
theorem zerosW_apply (r : Fin 256) (j : Fin 4) : (k0_pay1 (F := Ideal)) (ix2 r j) = Cert.Nnue.zero := by
  unfold k0_pay1; rfl

/-- The zero block the black accumulator is reset to. -/
theorem zerosB_apply (r : Fin 256) (j : Fin 4) : (k0_pay2 (F := Ideal)) (ix2 r j) = Cert.Nnue.zero := by
  unfold k0_pay2; rfl

/-! ## The 4096-deep product of a chunk's rows with the weight chunk's rows -/

private theorem lhsA_0 (i : S256x4.Idx) (q : dot_S256x4096_S4096x4_S256x4_1_0_0_1_n_n.contr.Idx) :
    (dot_S256x4096_S4096x4_S256x4_1_0_0_1_n_n.lhsIdx i q 0).val = (i 0).val := by
  unfold DotDims.lhsIdx
  rw [dif_neg (show ¬(0 : Fin S256x4096.rank) ∈ dot_S256x4096_S4096x4_S256x4_1_0_0_1_n_n.lhsBatch by decide), dif_pos (show (0 : Fin S256x4096.rank) ∈ dot_S256x4096_S4096x4_S256x4_1_0_0_1_n_n.lhsNonContracting by decide)]
  rfl
private theorem lhsA_1 (i : S256x4.Idx) (q : dot_S256x4096_S4096x4_S256x4_1_0_0_1_n_n.contr.Idx) :
    (dot_S256x4096_S4096x4_S256x4_1_0_0_1_n_n.lhsIdx i q 1).val = (q ⟨0, by decide⟩).val :=
  dot_S256x4096_S4096x4_S256x4_1_0_0_1_n_n.lhsIdx_val_of_single rfl i q
private theorem rhsA_0 (i : S256x4.Idx) (q : dot_S256x4096_S4096x4_S256x4_1_0_0_1_n_n.contr.Idx) :
    (dot_S256x4096_S4096x4_S256x4_1_0_0_1_n_n.rhsIdx i q 0).val = (q ⟨0, by decide⟩).val :=
  dot_S256x4096_S4096x4_S256x4_1_0_0_1_n_n.rhsIdx_val_of_single rfl i q
private theorem rhsA_1 (i : S256x4.Idx) (q : dot_S256x4096_S4096x4_S256x4_1_0_0_1_n_n.contr.Idx) :
    (dot_S256x4096_S4096x4_S256x4_1_0_0_1_n_n.rhsIdx i q 1).val = (i 1).val := by
  unfold DotDims.rhsIdx
  rw [dif_neg (show ¬(1 : Fin S4096x4.rank) ∈ dot_S256x4096_S4096x4_S256x4_1_0_0_1_n_n.rhsBatch by decide), dif_pos (show (1 : Fin S4096x4.rank) ∈ dot_S256x4096_S4096x4_S256x4_1_0_0_1_n_n.rhsNonContracting by decide)]
  rfl

/-- The product into a zero accumulator at (r, j): the sum over the 4096 positions of row r of the left factor times column j of the right. -/
private theorem mulA_apply (a : FVec Ideal S256x4096 .bf16) (b : FVec Ideal S4096x4 .bf16) (r : Fin 256) (j : Fin 4) :
    matmul dot_S256x4096_S4096x4_S256x4_1_0_0_1_n_n none a b (constant (F := Ideal) S256x4 .f32 0x00000000#32) (ix2 r j)
      = ∑ q : Fin 4096, a (ix2 r q) * b (ix2 q j) := by
  simp only [matmul]
  rw [Ideal.matmul_constant_zero_apply, ← Equiv.sum_comp (contrEquiv1 dot_S256x4096_S4096x4_S256x4_1_0_0_1_n_n 4096 rfl rfl).symm]
  refine Finset.sum_congr rfl fun k _ => ?_
  have hk := contrEquiv1_symm_val dot_S256x4096_S4096x4_S256x4_1_0_0_1_n_n 4096 rfl rfl k
  have el : dot_S256x4096_S4096x4_S256x4_1_0_0_1_n_n.lhsIdx (ix2 r j) ((contrEquiv1 dot_S256x4096_S4096x4_S256x4_1_0_0_1_n_n 4096 rfl rfl).symm k) = ix2 r k := funext fun a => Fin.ext (by
    match a with
    | ⟨0, _⟩ => exact lhsA_0 _ _
    | ⟨1, _⟩ => exact (lhsA_1 _ _).trans hk)
  have er : dot_S256x4096_S4096x4_S256x4_1_0_0_1_n_n.rhsIdx (ix2 r j) ((contrEquiv1 dot_S256x4096_S4096x4_S256x4_1_0_0_1_n_n 4096 rfl rfl).symm k) = ix2 k j := funext fun a => Fin.ext (by
    match a with
    | ⟨0, _⟩ => exact (rhsA_0 _ _).trans hk
    | ⟨1, _⟩ => exact rhsA_1 _ _)
  rw [el, er]

/-- The transposed weight chunk at (q, j) is the chunk at (j, q). -/
private theorem wT_apply (w : Vec Ideal S4x4096 .f32) (q : Fin 4096) (j : Fin 4) :
    k0_pay3 w (ix2 q j) = w (ix2 j q) := by
  unfold k0_pay3
  exact transpose_ix2_apply _ _ q j

/-- One step of the white accumulator at entry (r, j): what it held plus the chunk's row r against row j of the weight chunk. -/
theorem accW_step_apply (x : Vec Ideal S256x4096 .f32) (w : Vec Ideal S4x4096 .f32) (acc : Vec Ideal S256x4 .f32)
    (r : Fin 256) (j : Fin 4) :
    k0_pay4 x w acc (ix2 r j) = acc (ix2 r j) + ∑ q : Fin 4096, x (ix2 r q) * w (ix2 j q) := by
  unfold k0_pay4
  rw [shapeCast_self]
  refine (addf_apply _ _ _).trans ?_
  refine congrArg (acc (ix2 r j) + ·) ?_
  refine (mulA_apply _ _ r j).trans ?_
  exact Finset.sum_congr rfl fun q _ => congrArg (x (ix2 r q) * ·) (wT_apply w q j)

/-- One step of the black accumulator, likewise. -/
theorem accB_step_apply (x : Vec Ideal S256x4096 .f32) (w : Vec Ideal S4x4096 .f32) (acc : Vec Ideal S256x4 .f32)
    (r : Fin 256) (j : Fin 4) :
    k0_pay5 x w acc (ix2 r j) = acc (ix2 r j) + ∑ q : Fin 4096, x (ix2 r q) * w (ix2 j q) := by
  unfold k0_pay5
  rw [shapeCast_self]
  refine (addf_apply _ _ _).trans ?_
  refine congrArg (acc (ix2 r j) + ·) ?_
  refine (mulA_apply _ _ r j).trans ?_
  exact Finset.sum_congr rfl fun q _ => congrArg (x (ix2 r q) * ·) (wT_apply w q j)

/-! ## The layout operations of the last point, read at an entry -/

/-- A column [a, 1] spread over b columns reads, at (p, c), the column's entry of row p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [b] spread as one row over a rows reads, at (p, c), the vector's entry c. -/
private theorem rowOf_apply {α : Type} {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ v hc) hb (ix2 p c) = v (ix1 c) :=
  (broadcastTo_1b_ab_apply _ hb p c).trans (shapeCast_a_1a_apply v hc (0 : Fin 1) c)

/-- An accumulator block plus the bias row, at (r, j). -/
private theorem biasW_apply (a : Vec Ideal S256x4 .f32) (b0 : Vec Ideal S4 .f32) (r : Fin 256) (j : Fin 4) :
    k0_pay7 a b0 (ix2 r j) = a (ix2 r j) + b0 (ix1 j) := by
  unfold k0_pay7
  refine (addf_apply _ _ _).trans ?_
  exact congrArg (a (ix2 r j) + ·) (rowOf_apply b0 shapeCasts_S4_S1x4 broadcasts_S1x4_S256x4 r j)

private theorem biasB_apply (a : Vec Ideal S256x4 .f32) (b0 : Vec Ideal S4 .f32) (r : Fin 256) (j : Fin 4) :
    k0_pay8 a b0 (ix2 r j) = a (ix2 r j) + b0 (ix1 j) := by
  unfold k0_pay8
  refine (addf_apply _ _ _).trans ?_
  exact congrArg (a (ix2 r j) + ·) (rowOf_apply b0 shapeCasts_S4_S1x4 broadcasts_S1x4_S256x4 r j)

/-- The side to move weighing two blocks, clipped to the unit interval, at (r, j). -/
private theorem clipMix_apply (t : Vec Ideal S256x1 .f32) (u v : FVec Ideal S256x4 .f32) (r : Fin 256) (j : Fin 4) :
    (truncf .bf16 (minimumf (broadcast S256x4 (Scalar.ofBits (F := Ideal) .f32 0x3F800000#32))
        (maximumf (broadcast S256x4 (Scalar.ofBits (F := Ideal) .f32 0x00000000#32))
          (addf (mulf (broadcastTo S256x4 t broadcasts_S256x1_S256x4) u)
            (mulf (broadcastTo S256x4 (subf (broadcast S256x1 (Scalar.ofBits (F := Ideal) .f32 0x3F800000#32)) t) broadcasts_S256x1_S256x4) v))))
      bitsLt_bf16_f32 : FVec Ideal S256x4 .bf16) (ix2 r j)
      = Cert.Nnue.clip01 (Cert.Nnue.mix (t (ix2 r (0 : Fin 1))) (u (ix2 r j)) (v (ix2 r j))) := by
  show min _ (max _ (broadcastTo S256x4 t broadcasts_S256x1_S256x4 (ix2 r j) * u (ix2 r j)
    + broadcastTo S256x4 (subf (broadcast S256x1 (Scalar.ofBits (F := Ideal) .f32 0x3F800000#32)) t) broadcasts_S256x1_S256x4 (ix2 r j) * v (ix2 r j))) = _
  rw [broadcastTo_a1_ab_apply, broadcastTo_a1_ab_apply]
  rfl

/-! ## The two 4-deep products of the second layer and the 8-deep product of the evaluation -/

private theorem lhsB_0 (i : S256x8.Idx) (q : dot_S256x4_S4x8_S256x8_1_0_0_1_n_n.contr.Idx) :
    (dot_S256x4_S4x8_S256x8_1_0_0_1_n_n.lhsIdx i q 0).val = (i 0).val := by
  unfold DotDims.lhsIdx
  rw [dif_neg (show ¬(0 : Fin S256x4.rank) ∈ dot_S256x4_S4x8_S256x8_1_0_0_1_n_n.lhsBatch by decide), dif_pos (show (0 : Fin S256x4.rank) ∈ dot_S256x4_S4x8_S256x8_1_0_0_1_n_n.lhsNonContracting by decide)]
  rfl
private theorem lhsB_1 (i : S256x8.Idx) (q : dot_S256x4_S4x8_S256x8_1_0_0_1_n_n.contr.Idx) :
    (dot_S256x4_S4x8_S256x8_1_0_0_1_n_n.lhsIdx i q 1).val = (q ⟨0, by decide⟩).val :=
  dot_S256x4_S4x8_S256x8_1_0_0_1_n_n.lhsIdx_val_of_single rfl i q
private theorem rhsB_0 (i : S256x8.Idx) (q : dot_S256x4_S4x8_S256x8_1_0_0_1_n_n.contr.Idx) :
    (dot_S256x4_S4x8_S256x8_1_0_0_1_n_n.rhsIdx i q 0).val = (q ⟨0, by decide⟩).val :=
  dot_S256x4_S4x8_S256x8_1_0_0_1_n_n.rhsIdx_val_of_single rfl i q
private theorem rhsB_1 (i : S256x8.Idx) (q : dot_S256x4_S4x8_S256x8_1_0_0_1_n_n.contr.Idx) :
    (dot_S256x4_S4x8_S256x8_1_0_0_1_n_n.rhsIdx i q 1).val = (i 1).val := by
  unfold DotDims.rhsIdx
  rw [dif_neg (show ¬(1 : Fin S4x8.rank) ∈ dot_S256x4_S4x8_S256x8_1_0_0_1_n_n.rhsBatch by decide), dif_pos (show (1 : Fin S4x8.rank) ∈ dot_S256x4_S4x8_S256x8_1_0_0_1_n_n.rhsNonContracting by decide)]
  rfl

/-- A [256, 4] by [4, 8] product into a zero accumulator at (r, n): the sum over the four positions. -/
private theorem mulB_apply (a : FVec Ideal S256x4 .bf16) (b : FVec Ideal S4x8 .bf16) (r : Fin 256) (n : Fin 8) :
    matmul dot_S256x4_S4x8_S256x8_1_0_0_1_n_n none a b (constant (F := Ideal) S256x8 .f32 0x00000000#32) (ix2 r n)
      = ∑ j : Fin 4, a (ix2 r j) * b (ix2 j n) := by
  simp only [matmul]
  rw [Ideal.matmul_constant_zero_apply, ← Equiv.sum_comp (contrEquiv1 dot_S256x4_S4x8_S256x8_1_0_0_1_n_n 4 rfl rfl).symm]
  refine Finset.sum_congr rfl fun k _ => ?_
  have hk := contrEquiv1_symm_val dot_S256x4_S4x8_S256x8_1_0_0_1_n_n 4 rfl rfl k
  have el : dot_S256x4_S4x8_S256x8_1_0_0_1_n_n.lhsIdx (ix2 r n) ((contrEquiv1 dot_S256x4_S4x8_S256x8_1_0_0_1_n_n 4 rfl rfl).symm k) = ix2 r k := funext fun a => Fin.ext (by
    match a with
    | ⟨0, _⟩ => exact lhsB_0 _ _
    | ⟨1, _⟩ => exact (lhsB_1 _ _).trans hk)
  have er : dot_S256x4_S4x8_S256x8_1_0_0_1_n_n.rhsIdx (ix2 r n) ((contrEquiv1 dot_S256x4_S4x8_S256x8_1_0_0_1_n_n 4 rfl rfl).symm k) = ix2 k n := funext fun a => Fin.ext (by
    match a with
    | ⟨0, _⟩ => exact (rhsB_0 _ _).trans hk
    | ⟨1, _⟩ => exact rhsB_1 _ _)
  rw [el, er]

private theorem lhsC_0 (i : S256x1.Idx) (q : dot_S256x8_S8x1_S256x1_1_0_0_1_n_n.contr.Idx) :
    (dot_S256x8_S8x1_S256x1_1_0_0_1_n_n.lhsIdx i q 0).val = (i 0).val := by
  unfold DotDims.lhsIdx
  rw [dif_neg (show ¬(0 : Fin S256x8.rank) ∈ dot_S256x8_S8x1_S256x1_1_0_0_1_n_n.lhsBatch by decide), dif_pos (show (0 : Fin S256x8.rank) ∈ dot_S256x8_S8x1_S256x1_1_0_0_1_n_n.lhsNonContracting by decide)]
  rfl
private theorem lhsC_1 (i : S256x1.Idx) (q : dot_S256x8_S8x1_S256x1_1_0_0_1_n_n.contr.Idx) :
    (dot_S256x8_S8x1_S256x1_1_0_0_1_n_n.lhsIdx i q 1).val = (q ⟨0, by decide⟩).val :=
  dot_S256x8_S8x1_S256x1_1_0_0_1_n_n.lhsIdx_val_of_single rfl i q
private theorem rhsC_0 (i : S256x1.Idx) (q : dot_S256x8_S8x1_S256x1_1_0_0_1_n_n.contr.Idx) :
    (dot_S256x8_S8x1_S256x1_1_0_0_1_n_n.rhsIdx i q 0).val = (q ⟨0, by decide⟩).val :=
  dot_S256x8_S8x1_S256x1_1_0_0_1_n_n.rhsIdx_val_of_single rfl i q
private theorem rhsC_1 (i : S256x1.Idx) (q : dot_S256x8_S8x1_S256x1_1_0_0_1_n_n.contr.Idx) :
    (dot_S256x8_S8x1_S256x1_1_0_0_1_n_n.rhsIdx i q 1).val = (i 1).val := by
  unfold DotDims.rhsIdx
  rw [dif_neg (show ¬(1 : Fin S8x1.rank) ∈ dot_S256x8_S8x1_S256x1_1_0_0_1_n_n.rhsBatch by decide), dif_pos (show (1 : Fin S8x1.rank) ∈ dot_S256x8_S8x1_S256x1_1_0_0_1_n_n.rhsNonContracting by decide)]
  rfl

/-- A [256, 8] by [8, 1] product into a zero accumulator at (r, 0): the sum over the eight positions. -/
private theorem mulC_apply (a : FVec Ideal S256x8 .bf16) (b : FVec Ideal S8x1 .bf16) (r : Fin 256) (z : Fin 1) :
    matmul dot_S256x8_S8x1_S256x1_1_0_0_1_n_n none a b (constant (F := Ideal) S256x1 .f32 0x00000000#32) (ix2 r z)
      = ∑ n : Fin 8, a (ix2 r n) * b (ix2 n z) := by
  simp only [matmul]
  rw [Ideal.matmul_constant_zero_apply, ← Equiv.sum_comp (contrEquiv1 dot_S256x8_S8x1_S256x1_1_0_0_1_n_n 8 rfl rfl).symm]
  refine Finset.sum_congr rfl fun k _ => ?_
  have hk := contrEquiv1_symm_val dot_S256x8_S8x1_S256x1_1_0_0_1_n_n 8 rfl rfl k
  have el : dot_S256x8_S8x1_S256x1_1_0_0_1_n_n.lhsIdx (ix2 r z) ((contrEquiv1 dot_S256x8_S8x1_S256x1_1_0_0_1_n_n 8 rfl rfl).symm k) = ix2 r k := funext fun a => Fin.ext (by
    match a with
    | ⟨0, _⟩ => exact lhsC_0 _ _
    | ⟨1, _⟩ => exact (lhsC_1 _ _).trans hk)
  have er : dot_S256x8_S8x1_S256x1_1_0_0_1_n_n.rhsIdx (ix2 r z) ((contrEquiv1 dot_S256x8_S8x1_S256x1_1_0_0_1_n_n 8 rfl rfl).symm k) = ix2 k z := funext fun a => Fin.ext (by
    match a with
    | ⟨0, _⟩ => exact (rhsC_0 _ _).trans hk
    | ⟨1, _⟩ => exact rhsC_1 _ _)
  rw [el, er]

/-! ## The payloads of the last point at an entry -/

/-- The left half of the second layer's weights, transposed: at (j, n) it is W1 at (n, j). -/
private theorem w1Left_apply (W1 : Vec Ideal S8x8 .f32) (j : Fin 4) (n : Fin 8) :
    (transpose S4x8 [1, 0] (truncf .bf16 (extractStridedSlice S8x4 ![0, 0] W1 slices_S8x8_o0_0_S8x4) bitsLt_bf16_f32 : FVec Ideal S8x4 .bf16)
      transposes_S8x4_p1_0_S4x8) (ix2 j n) = W1 (ix2 n (⟨j.val, by omega⟩ : Fin 8)) :=
  (transpose_ix2_apply _ transposes_S8x4_p1_0_S4x8 j n).trans
    (slice2_axis1_apply 0 W1 slices_S8x8_o0_0_S8x4 n j (⟨j.val, by omega⟩ : Fin 8) (Nat.zero_add _).symm)

/-- The right half, transposed: at (j, n) it is W1 at (n, j + 4). -/
private theorem w1Right_apply (W1 : Vec Ideal S8x8 .f32) (j : Fin 4) (n : Fin 8) :
    k0_pay11 W1 (ix2 j n) = W1 (ix2 n (⟨j.val + 4, by omega⟩ : Fin 8)) := by
  unfold k0_pay11
  exact (transpose_ix2_apply _ transposes_S8x4_p1_0_S4x8 j n).trans
    (slice2_axis1_apply 4 W1 slices_S8x8_o0_4_S8x4 n j (⟨j.val + 4, by omega⟩ : Fin 8) (Nat.add_comm _ _))

/-- The first clipped half against the left weights, at (r, n). -/
private theorem half1_apply (aw : Vec Ideal S256x4 .f32) (bw : Vec Ideal S4 .f32) (ab : Vec Ideal S256x4 .f32) (bb : Vec Ideal S4 .f32)
    (t : Vec Ideal S256x1 .f32) (W1 : Vec Ideal S8x8 .f32) (r : Fin 256) (n : Fin 8) :
    k0_pay9 aw bw ab bb t W1 (ix2 r n)
      = ∑ j : Fin 4, Cert.Nnue.clip01 (Cert.Nnue.mix (t (ix2 r (0 : Fin 1))) (aw (ix2 r j) + bw (ix1 j)) (ab (ix2 r j) + bb (ix1 j)))
          * W1 (ix2 n (⟨j.val, by omega⟩ : Fin 8)) := by
  unfold k0_pay9
  refine (mulB_apply _ _ r n).trans ?_
  refine Finset.sum_congr rfl fun j _ => ?_
  refine congrArg₂ (· * ·) ?_ (w1Left_apply W1 j n)
  refine (clipMix_apply t (k0_pay7 aw bw) (k0_pay8 ab bb) r j).trans ?_
  rw [biasW_apply, biasB_apply]

/-- The second clipped half, at (r, j). -/
private theorem half2_apply (aw : Vec Ideal S256x4 .f32) (bw : Vec Ideal S4 .f32) (ab : Vec Ideal S256x4 .f32) (bb : Vec Ideal S4 .f32)
    (t : Vec Ideal S256x1 .f32) (r : Fin 256) (j : Fin 4) :
    k0_pay10 aw bw ab bb t (ix2 r j)
      = Cert.Nnue.clip01 (Cert.Nnue.mix (t (ix2 r (0 : Fin 1))) (ab (ix2 r j) + bb (ix1 j)) (aw (ix2 r j) + bw (ix1 j))) := by
  unfold k0_pay10
  refine (clipMix_apply t (k0_pay8 ab bb) (k0_pay7 aw bw) r j).trans ?_
  rw [biasW_apply, biasB_apply]

/-- The second layer's clipped unit n of row r, from the first half's product, the second half and its weights, and the bias. -/
private theorem unit2_apply (v65 : FVec Ideal S256x8 .f32) (v66 : FVec Ideal S256x4 .bf16) (v67 : FVec Ideal S4x8 .bf16)
    (b1 : Vec Ideal S8 .f32) (r : Fin 256) (n : Fin 8) :
    (truncf .bf16 (minimumf (broadcast S256x8 (Scalar.ofBits (F := Ideal) .f32 0x3F800000#32))
        (maximumf (broadcast S256x8 (Scalar.ofBits (F := Ideal) .f32 0x00000000#32))
          (addf (addf v65 (matmul dot_S256x4_S4x8_S256x8_1_0_0_1_n_n none v66 v67 (constant (F := Ideal) S256x8 .f32 0x00000000#32)))
            (broadcastTo S256x8 (shapeCast S1x8 b1 shapeCasts_S8_S1x8) broadcasts_S1x8_S256x8))))
      bitsLt_bf16_f32 : FVec Ideal S256x8 .bf16) (ix2 r n)
      = Cert.Nnue.clip01 ((v65 (ix2 r n) + ∑ j : Fin 4, v66 (ix2 r j) * v67 (ix2 j n)) + b1 (ix1 n)) := by
  show min _ (max _ ((v65 (ix2 r n)
      + matmul dot_S256x4_S4x8_S256x8_1_0_0_1_n_n none v66 v67 (constant (F := Ideal) S256x8 .f32 0x00000000#32) (ix2 r n))
    + broadcastTo S256x8 (shapeCast S1x8 b1 shapeCasts_S8_S1x8) broadcasts_S1x8_S256x8 (ix2 r n))) = _
  rw [mulB_apply, rowOf_apply]
  rfl

/-- The evaluation of row r from the clipped units: their product with the last weights plus the last bias. -/
private theorem evalVec_apply (y : FVec Ideal S256x8 .bf16) (W2 : Vec Ideal S1x8 .f32) (b2 : Vec Ideal S1 .f32) (r : Fin 256) :
    (addf (matmul dot_S256x8_S8x1_S256x1_1_0_0_1_n_n none y
        (transpose S8x1 [1, 0] (truncf .bf16 W2 bitsLt_bf16_f32 : FVec Ideal S1x8 .bf16) transposes_S1x8_p1_0_S8x1)
        (constant (F := Ideal) S256x1 .f32 0x00000000#32))
      (broadcastTo S256x1 (shapeCast S1x1 b2 shapeCasts_S1_S1x1) broadcasts_S1x1_S256x1)) (ix2 r (0 : Fin 1))
      = Cert.Nnue.evalOf (fun n => y (ix2 r n)) W2 b2 := by
  refine (addf_apply _ _ _).trans ?_
  unfold Cert.Nnue.evalOf
  refine congrArg₂ (· + ·) ?_ (rowOf_apply b2 shapeCasts_S1_S1x1 broadcasts_S1x1_S256x1 r (0 : Fin 1))
  refine (mulC_apply _ _ r (0 : Fin 1)).trans ?_
  exact Finset.sum_congr rfl fun n _ => congrArg (y (ix2 r n) * ·) (transpose_ix2_apply _ transposes_S1x8_p1_0_S8x1 n (0 : Fin 1))

/-- The loss of one entry from the evaluation, the score and the result blocks. -/
private theorem lossVec_apply (e sc res : FVec Ideal S256x1 .f32) (i : S256x1.Idx) :
    (addf
      (mulf (broadcast S256x1 (Scalar.ofBits (F := Ideal) .f32 0x3F800000#32))
        (mulf (subf (logistic (divf e (broadcast S256x1 (Scalar.ofBits (F := Ideal) .f32 0x43C80000#32))))
                    (logistic (divf sc (broadcast S256x1 (Scalar.ofBits (F := Ideal) .f32 0x43C80000#32)))))
              (subf (logistic (divf e (broadcast S256x1 (Scalar.ofBits (F := Ideal) .f32 0x43C80000#32))))
                    (logistic (divf sc (broadcast S256x1 (Scalar.ofBits (F := Ideal) .f32 0x43C80000#32)))))))
      (mulf (broadcast S256x1 (Scalar.ofBits (F := Ideal) .f32 0x00000000#32))
        (mulf (subf (logistic (divf e (broadcast S256x1 (Scalar.ofBits (F := Ideal) .f32 0x43C80000#32)))) res)
              (subf (logistic (divf e (broadcast S256x1 (Scalar.ofBits (F := Ideal) .f32 0x43C80000#32)))) res)))) i
      = Cert.Nnue.lossOf (e i) (sc i) (res i) := by
  unfold Cert.Nnue.lossOf
  simp only [← Cert.Nnue.logistic_eq_sig]
  rfl

/-- The loss entry of row r from the three pieces the first part hands over. -/
private theorem loss_apply (v65 : FVec Ideal S256x8 .f32) (v66 : FVec Ideal S256x4 .bf16) (v67 : FVec Ideal S4x8 .bf16)
    (b1 : Vec Ideal S8 .f32) (W2 : Vec Ideal S1x8 .f32) (b2 : Vec Ideal S1 .f32) (sc res : Vec Ideal S256x1 .f32) (r : Fin 256) :
    k0_pay6 v65 v66 v67 b1 W2 b2 sc res (ix2 r (0 : Fin 1))
      = Cert.Nnue.lossOf
          (Cert.Nnue.evalOf (fun n => Cert.Nnue.clip01 ((v65 (ix2 r n) + ∑ j : Fin 4, v66 (ix2 r j) * v67 (ix2 j n)) + b1 (ix1 n))) W2 b2)
          (sc (ix2 r (0 : Fin 1))) (res (ix2 r (0 : Fin 1))) := by
  unfold k0_pay6
  refine (lossVec_apply _ sc res (ix2 r (0 : Fin 1))).trans ?_
  refine congrArg (fun e => Cert.Nnue.lossOf e (sc (ix2 r (0 : Fin 1))) (res (ix2 r (0 : Fin 1)))) ?_
  refine (evalVec_apply _ W2 b2 r).trans ?_
  exact congrArg (fun y => Cert.Nnue.evalOf y W2 b2) (funext fun n => unit2_apply v65 v66 v67 b1 r n)

/-- The output entry of row r: the row's loss from the accumulator rows plus the bias, its side to move, score and result. -/
theorem out_apply (aw ab : Vec Ideal S256x4 .f32) (b0 : Vec Ideal S4 .f32) (t sc res : Vec Ideal S256x1 .f32)
    (W1 : Vec Ideal S8x8 .f32) (b1 : Vec Ideal S8 .f32) (W2 : Vec Ideal S1x8 .f32) (b2 : Vec Ideal S1 .f32) (r : Fin 256) :
    k0_pay6 (k0_pay9 aw b0 ab b0 t W1) (k0_pay10 aw b0 ab b0 t) (k0_pay11 W1) b1 W2 b2 sc res (ix2 r (0 : Fin 1))
      = Cert.Nnue.rowLoss (fun j => aw (ix2 r j) + b0 (ix1 j)) (fun j => ab (ix2 r j) + b0 (ix1 j))
          (t (ix2 r (0 : Fin 1))) (sc (ix2 r (0 : Fin 1))) (res (ix2 r (0 : Fin 1))) W1 b1 W2 b2 := by
  refine (loss_apply _ _ _ b1 W2 b2 sc res r).trans ?_
  unfold Cert.Nnue.rowLoss
  refine congrArg (fun e => Cert.Nnue.lossOf e (sc (ix2 r (0 : Fin 1))) (res (ix2 r (0 : Fin 1)))) ?_
  refine congrArg (fun y => Cert.Nnue.evalOf y W2 b2) (funext fun n => congrArg Cert.Nnue.clip01 ?_)
  unfold Cert.Nnue.layer2
  refine congrArg (· + b1 (ix1 n)) ?_
  refine congrArg₂ (· + ·) (half1_apply aw b0 ab b0 t W1 r n) ?_
  exact Finset.sum_congr rfl fun j _ => congrArg₂ (· * ·) (half2_apply aw b0 ab b0 t r j) (w1Right_apply W1 j n)

end Cert.KernelIdeal.PayIdx

end
-- ==== Proof.Blocks.lean ====
/-
  Where the pipeline's windows read the argument arrays: at grid point t = 20·b + k (row block b of 256 rows,
  feature chunk k of 4096 columns) the feature windows hold rows 256b … 256b+255 and columns 4096k … 4096k+4095,
  the weight window the same columns of all four rows, the per-row columns (side to move, score, result) rows
  256b … 256b+255, and the small parameter windows their whole arrays; the output window's block at such a
  point is rows 256b … 256b+255 of the result, written back at k = 19 only.
-/
import proofs.«148360_j16990890623528_1_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ)

/-! ## The index maps over the 80 grid points -/

private theorem idx0 : ∀ t : Fin cfg0.N, win0_0.index t 0 = t.val / 20 ∧ win0_0.index t 1 = t.val % 20 :=
  (by decide +kernel : ∀ t : Fin grid0.N, _)
private theorem idx1 : ∀ t : Fin cfg0.N, win0_1.index t 0 = t.val / 20 ∧ win0_1.index t 1 = t.val % 20 :=
  (by decide +kernel : ∀ t : Fin grid0.N, _)
private theorem idx2 : ∀ t : Fin cfg0.N, win0_2.index t 0 = 0 ∧ win0_2.index t 1 = t.val % 20 :=
  (by decide +kernel : ∀ t : Fin grid0.N, _)
private theorem idx3 : ∀ t : Fin cfg0.N, win0_3.index t 0 = t.val / 20 ∧ win0_3.index t 1 = 0 :=
  (by decide +kernel : ∀ t : Fin grid0.N, _)
private theorem idx4 : ∀ t : Fin cfg0.N, win0_4.index t 0 = t.val / 20 ∧ win0_4.index t 1 = 0 :=
  (by decide +kernel : ∀ t : Fin grid0.N, _)
private theorem idx5 : ∀ t : Fin cfg0.N, win0_5.index t 0 = t.val / 20 ∧ win0_5.index t 1 = 0 :=
  (by decide +kernel : ∀ t : Fin grid0.N, _)
private theorem idx6 : ∀ t : Fin cfg0.N, win0_6.index t 0 = 0 :=
  (by decide +kernel : ∀ t : Fin grid0.N, _)
private theorem idx7 : ∀ t : Fin cfg0.N, win0_7.index t 0 = 0 ∧ win0_7.index t 1 = 0 :=
  (by decide +kernel : ∀ t : Fin grid0.N, _)
private theorem idx8 : ∀ t : Fin cfg0.N, win0_8.index t 0 = 0 :=
  (by decide +kernel : ∀ t : Fin grid0.N, _)
private theorem idx9 : ∀ t : Fin cfg0.N, win0_9.index t 0 = 0 ∧ win0_9.index t 1 = 0 :=
  (by decide +kernel : ∀ t : Fin grid0.N, _)
private theorem idx10 : ∀ t : Fin cfg0.N, win0_10.index t 0 = 0 :=
  (by decide +kernel : ∀ t : Fin grid0.N, _)
private theorem idx11 : ∀ t : Fin cfg0.N, win0_11.index t 0 = t.val / 20 ∧ win0_11.index t 1 = 0 :=
  (by decide +kernel : ∀ t : Fin grid0.N, _)

/-- The white features' block. -/
theorem white_blk (c : Dev nD) (t : Fin cfg0.N) (r : Fin 256) (q : Fin 4096) (R : Fin 1024) (k : Fin 81920)
    (hR : R.val = 256 * (t.val / 20) + r.val) (hk : k.val = 4096 * (t.val % 20) + q.val) :
    (iblk m c 0 t : Vec F S256x4096 .f32) (ix2 r q) = m ((c : Thread nD τ).loc main_arg0) (ix2 R k) := by
  unfold iblk
  rw [View.read_apply]
  show V m c main_arg0 _ = _
  unfold V
  congr 1
  funext a
  apply Fin.ext
  match a with
  | ⟨0, _⟩ => show win0_0.index t 0 * 256 + 1 * r.val = R.val; rw [(idx0 t).1, hR]; omega
  | ⟨1, _⟩ => show win0_0.index t 1 * 4096 + 1 * q.val = k.val; rw [(idx0 t).2, hk]; omega

/-- The black features' block. -/
theorem black_blk (c : Dev nD) (t : Fin cfg0.N) (r : Fin 256) (q : Fin 4096) (R : Fin 1024) (k : Fin 81920)
    (hR : R.val = 256 * (t.val / 20) + r.val) (hk : k.val = 4096 * (t.val % 20) + q.val) :
    (iblk m c 1 t : Vec F S256x4096 .f32) (ix2 r q) = m ((c : Thread nD τ).loc main_arg1) (ix2 R k) := by
  unfold iblk
  rw [View.read_apply]
  show V m c main_arg1 _ = _
  unfold V
  congr 1
  funext a
  apply Fin.ext
  match a with
  | ⟨0, _⟩ => show win0_1.index t 0 * 256 + 1 * r.val = R.val; rw [(idx1 t).1, hR]; omega
  | ⟨1, _⟩ => show win0_1.index t 1 * 4096 + 1 * q.val = k.val; rw [(idx1 t).2, hk]; omega

/-- The first-layer weights' block: all four rows, the chunk's columns. -/
theorem w0_blk (c : Dev nD) (t : Fin cfg0.N) (j : Fin 4) (q : Fin 4096) (k : Fin 81920)
    (hk : k.val = 4096 * (t.val % 20) + q.val) :
    (iblk m c 2 t : Vec F S4x4096 .f32) (ix2 j q) = m ((c : Thread nD τ).loc main_arg5) (ix2 j k) := by
  unfold iblk
  rw [View.read_apply]
  show V m c main_arg5 _ = _
  unfold V
  congr 1
  funext a
  apply Fin.ext
  match a with
  | ⟨0, _⟩ => show win0_2.index t 0 * 4 + 1 * j.val = j.val; rw [(idx2 t).1]; omega
  | ⟨1, _⟩ => show win0_2.index t 1 * 4096 + 1 * q.val = k.val; rw [(idx2 t).2, hk]; omega

/-- The side-to-move column's block. -/
theorem turn_blk (c : Dev nD) (t : Fin cfg0.N) (r : Fin 256) (R : Fin 1024) (hR : R.val = 256 * (t.val / 20) + r.val) :
    (iblk m c 3 t : Vec F S256x1 .f32) (ix2 r (0 : Fin 1)) = m ((c : Thread nD τ).loc main_arg2) (ix2 R (0 : Fin 1)) := by
  unfold iblk
  rw [View.read_apply]
  show V m c main_arg2 _ = _
  unfold V
  congr 1
  funext a
  apply Fin.ext
  match a with
  | ⟨0, _⟩ => show win0_3.index t 0 * 256 + 1 * r.val = R.val; rw [(idx3 t).1, hR]; omega
  | ⟨1, _⟩ => show win0_3.index t 1 * 1 + 1 * (0 : Fin 1).val = (0 : Fin 1).val; rw [(idx3 t).2]; rfl

/-- The score column's block. -/
theorem score_blk (c : Dev nD) (t : Fin cfg0.N) (r : Fin 256) (R : Fin 1024) (hR : R.val = 256 * (t.val / 20) + r.val) :
    (iblk m c 4 t : Vec F S256x1 .f32) (ix2 r (0 : Fin 1)) = m ((c : Thread nD τ).loc main_arg3) (ix2 R (0 : Fin 1)) := by
  unfold iblk
  rw [View.read_apply]
  show V m c main_arg3 _ = _
  unfold V
  congr 1
  funext a
  apply Fin.ext
  match a with
  | ⟨0, _⟩ => show win0_4.index t 0 * 256 + 1 * r.val = R.val; rw [(idx4 t).1, hR]; omega
  | ⟨1, _⟩ => show win0_4.index t 1 * 1 + 1 * (0 : Fin 1).val = (0 : Fin 1).val; rw [(idx4 t).2]; rfl

/-- The result column's block. -/
theorem result_blk (c : Dev nD) (t : Fin cfg0.N) (r : Fin 256) (R : Fin 1024) (hR : R.val = 256 * (t.val / 20) + r.val) :
    (iblk m c 5 t : Vec F S256x1 .f32) (ix2 r (0 : Fin 1)) = m ((c : Thread nD τ).loc main_arg4) (ix2 R (0 : Fin 1)) := by
  unfold iblk
  rw [View.read_apply]
  show V m c main_arg4 _ = _
  unfold V
  congr 1
  funext a
  apply Fin.ext
  match a with
  | ⟨0, _⟩ => show win0_5.index t 0 * 256 + 1 * r.val = R.val; rw [(idx5 t).1, hR]; omega
  | ⟨1, _⟩ => show win0_5.index t 1 * 1 + 1 * (0 : Fin 1).val = (0 : Fin 1).val; rw [(idx5 t).2]; rfl

/-- The small parameters' windows hold their whole arrays at every point. -/
theorem b0_blk (c : Dev nD) (t : Fin cfg0.N) : (iblk m c 6 t : Vec F S4 .f32) = m ((c : Thread nD τ).loc main_arg6) := by
  funext j
  unfold iblk
  rw [View.read_apply]
  show V m c main_arg6 _ = _
  unfold V
  congr 1
  funext a
  apply Fin.ext
  match a with
  | ⟨0, _⟩ => show win0_6.index t 0 * 4 + 1 * (j 0).val = (j 0).val; rw [idx6 t]; omega
theorem w1_blk (c : Dev nD) (t : Fin cfg0.N) : (iblk m c 7 t : Vec F S8x8 .f32) = m ((c : Thread nD τ).loc main_arg7) := by
  funext j
  unfold iblk
  rw [View.read_apply]
  show V m c main_arg7 _ = _
  unfold V
  congr 1
  funext a
  apply Fin.ext
  match a with
  | ⟨0, _⟩ => show win0_7.index t 0 * 8 + 1 * (j 0).val = (j 0).val; rw [(idx7 t).1]; omega
  | ⟨1, _⟩ => show win0_7.index t 1 * 8 + 1 * (j 1).val = (j 1).val; rw [(idx7 t).2]; omega
theorem b1_blk (c : Dev nD) (t : Fin cfg0.N) : (iblk m c 8 t : Vec F S8 .f32) = m ((c : Thread nD τ).loc main_arg8) := by
  funext j
  unfold iblk
  rw [View.read_apply]
  show V m c main_arg8 _ = _
  unfold V
  congr 1
  funext a
  apply Fin.ext
  match a with
  | ⟨0, _⟩ => show win0_8.index t 0 * 8 + 1 * (j 0).val = (j 0).val; rw [idx8 t]; omega
theorem w2_blk (c : Dev nD) (t : Fin cfg0.N) : (iblk m c 9 t : Vec F S1x8 .f32) = m ((c : Thread nD τ).loc main_arg9) := by
  funext j
  unfold iblk
  rw [View.read_apply]
  show V m c main_arg9 _ = _
  unfold V
  congr 1
  funext a
  apply Fin.ext
  match a with
  | ⟨0, _⟩ => show win0_9.index t 0 * 1 + 1 * (j 0).val = (j 0).val; rw [(idx9 t).1]; omega
  | ⟨1, _⟩ => show win0_9.index t 1 * 8 + 1 * (j 1).val = (j 1).val; rw [(idx9 t).2]; omega
theorem b2_blk (c : Dev nD) (t : Fin cfg0.N) : (iblk m c 10 t : Vec F S1 .f32) = m ((c : Thread nD τ).loc main_arg10) := by
  funext j
  unfold iblk
  rw [View.read_apply]
  show V m c main_arg10 _ = _
  unfold V
  congr 1
  funext a
  apply Fin.ext
  match a with
  | ⟨0, _⟩ => show win0_10.index t 0 * 1 + 1 * (j 0).val = (j 0).val; rw [idx10 t]; omega

/-- What the output window writes back at point t, for a block value `B` that is rows 256·(t/20) … of a whole-array
    function `G`: the block of `G` the window's rectangle names. -/
theorem out_cut_eq (t : Fin cfg0.N) (B : Vec F S256x1 .f32) (G : Vec F S1024x1 .f32)
    (h : ∀ (r : Fin 256) (R : Fin 1024), R.val = 256 * (t.val / 20) + r.val → B (ix2 r (0 : Fin 1)) = G (ix2 R (0 : Fin 1))) :
    (cfg0.win 11).cut (grid0.coords t) B = ((cfg0.win 11).blk t).view.read (Elt F) G := by
  have hN : cfg0.N = 80 := N_0
  have ht : t.val < 80 := hN ▸ t.isLt
  funext y
  rw [View.read_apply]
  obtain ⟨r, z, rfl⟩ : ∃ (r : Fin 256) (z : Fin 1), y = ix2 r z := ⟨y 0, y 1, eq_ix2 y⟩
  obtain rfl : z = 0 := Subsingleton.elim _ _
  have hr : r.val < 256 := r.isLt
  show B (ix2 r (0 : Fin 1)) = G _
  refine (h r ⟨256 * (t.val / 20) + r.val, by omega⟩ rfl).trans ?_
  congr 1
  funext a
  apply Fin.ext
  match a with
  | ⟨0, _⟩ => show 256 * (t.val / 20) + r.val = win0_11.index t 0 * 256 + 1 * r.val; rw [(idx11 t).1]; omega
  | ⟨1, _⟩ => show (0 : Fin 1).val = win0_11.index t 1 * 1 + 1 * (0 : Fin 1).val; rw [(idx11 t).2]; rfl

/-- Every entry of the result lies in the block of a point that writes back: row R in the block of point 20·(R/256) + 19. -/
theorem out_cover (i : S1024x1.Idx) : ∃ t : Fin cfg0.N, (cfg0.win 11).flush t = true ∧ i ∈ ((cfg0.win 11).blk t).view.set := by
  have hN : cfg0.N = 80 := N_0
  have h0 : (i 0 : Nat) < 1024 := (i 0).isLt
  have h1 : (i 1 : Nat) < 1 := (i 1).isLt
  obtain ⟨p, hp⟩ : ∃ p : Fin cfg0.N, p.val = 20 * ((i 0).val / 256) + 19 := ⟨⟨_, by rw [hN]; omega⟩, rfl⟩
  refine ⟨p, (flush0_11 p).mpr (by omega), ?_⟩
  show i ∈ ((View.whole main_v0).slice (win0_11.rect p)).set
  rw [View.set_slice_whole, Rect.mem_set_unit]
  intro a
  match a with
  | ⟨0, _⟩ =>
    show win0_11.index p 0 * 256 ≤ (i 0 : Nat) ∧ (i 0 : Nat) < win0_11.index p 0 * 256 + 256
    rw [(idx11 p).1]
    omega
  | ⟨1, _⟩ =>
    show win0_11.index p 1 * 1 ≤ (i 1 : Nat) ∧ (i 1 : Nat) < win0_11.index p 1 * 1 + 1
    rw [(idx11 p).2]
    omega

end Cert.KernelIdeal.Blocks

end
-- ==== Proof.Fold.lean ====
/-
  The two feature accumulators after a row block's run of twenty grid points: each holds, at entry (r, j), zero
  plus the twenty chunk sums  Σ_q chunk_s[r, q] · W0chunk_s[j, q]  (s = 0 … 19), by the fold of the per-point step:
  the first point resets to zero and adds its chunk's sum, every later point adds its own to what it finds.
-/
import proofs.«148360_j16990890623528_1_alg».proof.Proof.Gen.KernelIdeal.Value
import proofs.«148360_j16990890623528_1_alg».proof.Proof.Pieces
import proofs.«148360_j16990890623528_1_alg».proof.Proof.PayIdx
import proofs.«148360_j16990890623528_1_alg».proof.Proof.Spec
import Idealize.ShloMosaic.Lib.Pipeline.Value
import Idealize.ShloMosaic.Lib.ValueIdx

noncomputable section

open scoped BigOperators

namespace Cert.KernelIdeal.Fold

open Cert.KernelIdeal Cert.KernelIdeal.Gen Cert.KernelIdeal.Value Idealize.ShloMosaic Idealize.ShloMosaic.TcCoe Idealize.SL.Sem
open Idealize.ShloMosaic.ValueIdx

variable (m : (ℓ : Loc nD τ sig) → Buf (Elt Ideal) ℓ)

/-- The white chunk, the black chunk and the weight chunk a grid point's windows hold, at their literal types. -/
abbrev chunk0 (c : Dev nD) (t : Fin cfg0.N) : Vec Ideal S256x4096 .f32 := iblk m c 0 t
abbrev chunk1 (c : Dev nD) (t : Fin cfg0.N) : Vec Ideal S256x4096 .f32 := iblk m c 1 t
abbrev wchunk (c : Dev nD) (t : Fin cfg0.N) : Vec Ideal S4x4096 .f32 := iblk m c 2 t

/-- Point `n`'s addend to the W accumulator at entry `i` = (r, j): the products of row r of the point's W feature
    chunk with row j of its weight chunk, summed over the chunk's 4096 columns (zero past the grid, where it is never read). -/
def addW (c : Dev nD) (n : ℕ) (i : S256x4.Idx) : EReal :=
  if h : n < cfg0.N then
    ∑ q : Fin 4096, chunk0 m c ⟨n, h⟩ (ix2 (⟨(i 0).val, idx2_lt0 i⟩ : Fin 256) q)
      * wchunk m c ⟨n, h⟩ (ix2 (⟨(i 1).val, idx2_lt1 i⟩ : Fin 4) q)
  else 0

/-- At the first point of a row block's run the W accumulator ends at zero plus that point's addend. -/
theorem firstW (c : Dev nD) (n : ℕ) (h : n < cfg0.N) (hn : n % 20 = 0) (junk : Vec Ideal S256x4 .f32) (i : S256x4.Idx) :
    scAt0_0 m c n h junk i = Cert.Nnue.zero + addW m c n i := by
  obtain ⟨r, j, rfl⟩ : ∃ (r : Fin 256) (j : Fin 4), i = ix2 r j := ⟨i 0, i 1, eq_ix2 i⟩
  have h1 : ¬ n % 20 = 19 := by omega
  unfold scAt0_0
  rw [dif_pos hn, dif_neg h1]
  refine (congrFun (Cert.KernelIdeal.Pieces.accW_first (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) (ms0_8 (⟨n, h⟩ : Fin cfg0.N)) (hs0_8 (⟨n, h⟩ : Fin cfg0.N)) (ms0_9 (⟨n, h⟩ : Fin cfg0.N)) (hs0_9 (⟨n, h⟩ : Fin cfg0.N)) (ms0_10 (⟨n, h⟩ : Fin cfg0.N)) (hs0_10 (⟨n, h⟩ : Fin cfg0.N)) (ms0_11 (⟨n, h⟩ : Fin cfg0.N)) (hs0_11 (⟨n, h⟩ : Fin cfg0.N)) scM0_0 (Memref.isWhole_whole _) scM0_1 (Memref.isWhole_whole _) ((hcond0_0 (⟨n, h⟩ : Fin cfg0.N)).mpr hn) (fun h' => h1 ((hcond0_1 (⟨n, h⟩ : Fin cfg0.N)).mp h')) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N)) (iblk m c 8 (⟨n, h⟩ : Fin cfg0.N)) (iblk m c 9 (⟨n, h⟩ : Fin cfg0.N)) (iblk m c 10 (⟨n, h⟩ : Fin cfg0.N))) (ix2 r j)).trans ?_
  refine (Cert.KernelIdeal.PayIdx.accW_step_apply (iblk m c 0 (⟨n, h⟩ : Fin cfg0.N)) (iblk m c 2 (⟨n, h⟩ : Fin cfg0.N)) (k0_pay1 (F := Ideal)) r j).trans ?_
  rw [Cert.KernelIdeal.PayIdx.zerosW_apply]
  unfold addW
  rw [dif_pos h]

/-- At every later point of the run it ends at what the point before left plus that point's addend. -/
theorem stepW (c : Dev nD) (n : ℕ) (h : n < cfg0.N) (hn : ¬ n % 20 = 0) (acc : Vec Ideal S256x4 .f32) (i : S256x4.Idx) :
    scAt0_0 m c n h acc i = acc i + addW m c n i := by
  obtain ⟨r, j, rfl⟩ : ∃ (r : Fin 256) (j : Fin 4), i = ix2 r j := ⟨i 0, i 1, eq_ix2 i⟩
  unfold scAt0_0
  rw [dif_neg hn]
  by_cases h1 : n % 20 = 19
  · rw [dif_pos h1]
    refine (congrFun (Cert.KernelIdeal.Pieces.accW_last (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) (ms0_8 (⟨n, h⟩ : Fin cfg0.N)) (hs0_8 (⟨n, h⟩ : Fin cfg0.N)) (ms0_9 (⟨n, h⟩ : Fin cfg0.N)) (hs0_9 (⟨n, h⟩ : Fin cfg0.N)) (ms0_10 (⟨n, h⟩ : Fin cfg0.N)) (hs0_10 (⟨n, h⟩ : Fin cfg0.N)) (ms0_11 (⟨n, h⟩ : Fin cfg0.N)) (hs0_11 (⟨n, h⟩ : Fin cfg0.N)) scM0_0 (Memref.isWhole_whole _) scM0_1 (Memref.isWhole_whole _) (fun h' => hn ((hcond0_0 (⟨n, h⟩ : Fin cfg0.N)).mp h')) ((hcond0_1 (⟨n, h⟩ : Fin cfg0.N)).mpr h1) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N)) (iblk m c 8 (⟨n, h⟩ : Fin cfg0.N)) (iblk m c 9 (⟨n, h⟩ : Fin cfg0.N)) (iblk m c 10 (⟨n, h⟩ : Fin cfg0.N)) acc (outsAt0 m c ((⟨n, h⟩ : Fin cfg0.N).val - 1) (Nat.lt_of_le_of_lt (Nat.sub_le _ _) (⟨n, h⟩ : Fin cfg0.N).isLt)).2.2) (ix2 r j)).trans ?_
    refine (Cert.KernelIdeal.PayIdx.accW_step_apply (iblk m c 0 (⟨n, h⟩ : Fin cfg0.N)) (iblk m c 2 (⟨n, h⟩ : Fin cfg0.N)) acc r j).trans ?_
    unfold addW
    rw [dif_pos h]
  · rw [dif_neg h1]
    refine (congrFun (Cert.KernelIdeal.Pieces.accW_mid (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) (ms0_8 (⟨n, h⟩ : Fin cfg0.N)) (hs0_8 (⟨n, h⟩ : Fin cfg0.N)) (ms0_9 (⟨n, h⟩ : Fin cfg0.N)) (hs0_9 (⟨n, h⟩ : Fin cfg0.N)) (ms0_10 (⟨n, h⟩ : Fin cfg0.N)) (hs0_10 (⟨n, h⟩ : Fin cfg0.N)) (ms0_11 (⟨n, h⟩ : Fin cfg0.N)) (hs0_11 (⟨n, h⟩ : Fin cfg0.N)) scM0_0 (Memref.isWhole_whole _) scM0_1 (Memref.isWhole_whole _) (fun h' => hn ((hcond0_0 (⟨n, h⟩ : Fin cfg0.N)).mp h')) (fun h' => h1 ((hcond0_1 (⟨n, h⟩ : Fin cfg0.N)).mp h')) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N)) (iblk m c 8 (⟨n, h⟩ : Fin cfg0.N)) (iblk m c 9 (⟨n, h⟩ : Fin cfg0.N)) (iblk m c 10 (⟨n, h⟩ : Fin cfg0.N)) acc (outsAt0 m c ((⟨n, h⟩ : Fin cfg0.N).val - 1) (Nat.lt_of_le_of_lt (Nat.sub_le _ _) (⟨n, h⟩ : Fin cfg0.N).isLt)).2.2) (ix2 r j)).trans ?_
    refine (Cert.KernelIdeal.PayIdx.accW_step_apply (iblk m c 0 (⟨n, h⟩ : Fin cfg0.N)) (iblk m c 2 (⟨n, h⟩ : Fin cfg0.N)) acc r j).trans ?_
    unfold addW
    rw [dif_pos h]

/-- So after the last point of a run the W accumulator holds zero plus the twenty points' addends. -/
theorem foldW (c : Dev nD) (t : Fin cfg0.N) (ht : t.val % 20 = 19) (i : S256x4.Idx) :
    (outsAt0 m c t.val t.isLt).2.1 i = Cert.Nnue.zero + ∑ s ∈ Finset.range 20, addW m c (20 * (t.val / 20) + s) i := by
  rw [soutsAt0_0_eq m c t]
  refine (Pipeline.accAt_add_apply (fun n h => scAt0_0 m c n h (VS0_0.read (Elt Ideal) VS0_0.junk)) (scAt0_0 m c)
    (fun _ => Cert.Nnue.zero) (addW m c) (20 * (t.val / 20)) 19
    (fun h i => firstW m c _ h (Nat.mul_mod_right 20 _) _ i)
    (fun n h acc i hlt hle => stepW m c n h (by omega) acc i)
    (t.val % 20) (by omega) _ i).trans ?_
  rw [ht]

/-- Point `n`'s addend to the B accumulator at entry `i` = (r, j): the products of row r of the point's B feature
    chunk with row j of its weight chunk, summed over the chunk's 4096 columns (zero past the grid, where it is never read). -/
def addB (c : Dev nD) (n : ℕ) (i : S256x4.Idx) : EReal :=
  if h : n < cfg0.N then
    ∑ q : Fin 4096, chunk1 m c ⟨n, h⟩ (ix2 (⟨(i 0).val, idx2_lt0 i⟩ : Fin 256) q)
      * wchunk m c ⟨n, h⟩ (ix2 (⟨(i 1).val, idx2_lt1 i⟩ : Fin 4) q)
  else 0

/-- At the first point of a row block's run the B accumulator ends at zero plus that point's addend. -/
theorem firstB (c : Dev nD) (n : ℕ) (h : n < cfg0.N) (hn : n % 20 = 0) (junk : Vec Ideal S256x4 .f32) (i : S256x4.Idx) :
    scAt0_1 m c n h junk i = Cert.Nnue.zero + addB m c n i := by
  obtain ⟨r, j, rfl⟩ : ∃ (r : Fin 256) (j : Fin 4), i = ix2 r j := ⟨i 0, i 1, eq_ix2 i⟩
  have h1 : ¬ n % 20 = 19 := by omega
  unfold scAt0_1
  rw [dif_pos hn, dif_neg h1]
  refine (congrFun (Cert.KernelIdeal.Pieces.accB_first (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) (ms0_8 (⟨n, h⟩ : Fin cfg0.N)) (hs0_8 (⟨n, h⟩ : Fin cfg0.N)) (ms0_9 (⟨n, h⟩ : Fin cfg0.N)) (hs0_9 (⟨n, h⟩ : Fin cfg0.N)) (ms0_10 (⟨n, h⟩ : Fin cfg0.N)) (hs0_10 (⟨n, h⟩ : Fin cfg0.N)) (ms0_11 (⟨n, h⟩ : Fin cfg0.N)) (hs0_11 (⟨n, h⟩ : Fin cfg0.N)) scM0_0 (Memref.isWhole_whole _) scM0_1 (Memref.isWhole_whole _) ((hcond0_0 (⟨n, h⟩ : Fin cfg0.N)).mpr hn) (fun h' => h1 ((hcond0_1 (⟨n, h⟩ : Fin cfg0.N)).mp h')) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N)) (iblk m c 8 (⟨n, h⟩ : Fin cfg0.N)) (iblk m c 9 (⟨n, h⟩ : Fin cfg0.N)) (iblk m c 10 (⟨n, h⟩ : Fin cfg0.N))) (ix2 r j)).trans ?_
  refine (Cert.KernelIdeal.PayIdx.accB_step_apply (iblk m c 1 (⟨n, h⟩ : Fin cfg0.N)) (iblk m c 2 (⟨n, h⟩ : Fin cfg0.N)) (k0_pay2 (F := Ideal)) r j).trans ?_
  rw [Cert.KernelIdeal.PayIdx.zerosB_apply]
  unfold addB
  rw [dif_pos h]

/-- At every later point of the run it ends at what the point before left plus that point's addend. -/
theorem stepB (c : Dev nD) (n : ℕ) (h : n < cfg0.N) (hn : ¬ n % 20 = 0) (acc : Vec Ideal S256x4 .f32) (i : S256x4.Idx) :
    scAt0_1 m c n h acc i = acc i + addB m c n i := by
  obtain ⟨r, j, rfl⟩ : ∃ (r : Fin 256) (j : Fin 4), i = ix2 r j := ⟨i 0, i 1, eq_ix2 i⟩
  unfold scAt0_1
  rw [dif_neg hn]
  by_cases h1 : n % 20 = 19
  · rw [dif_pos h1]
    refine (congrFun (Cert.KernelIdeal.Pieces.accB_last (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) (ms0_8 (⟨n, h⟩ : Fin cfg0.N)) (hs0_8 (⟨n, h⟩ : Fin cfg0.N)) (ms0_9 (⟨n, h⟩ : Fin cfg0.N)) (hs0_9 (⟨n, h⟩ : Fin cfg0.N)) (ms0_10 (⟨n, h⟩ : Fin cfg0.N)) (hs0_10 (⟨n, h⟩ : Fin cfg0.N)) (ms0_11 (⟨n, h⟩ : Fin cfg0.N)) (hs0_11 (⟨n, h⟩ : Fin cfg0.N)) scM0_0 (Memref.isWhole_whole _) scM0_1 (Memref.isWhole_whole _) (fun h' => hn ((hcond0_0 (⟨n, h⟩ : Fin cfg0.N)).mp h')) ((hcond0_1 (⟨n, h⟩ : Fin cfg0.N)).mpr h1) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N)) (iblk m c 8 (⟨n, h⟩ : Fin cfg0.N)) (iblk m c 9 (⟨n, h⟩ : Fin cfg0.N)) (iblk m c 10 (⟨n, h⟩ : Fin cfg0.N)) (outsAt0 m c ((⟨n, h⟩ : Fin cfg0.N).val - 1) (Nat.lt_of_le_of_lt (Nat.sub_le _ _) (⟨n, h⟩ : Fin cfg0.N).isLt)).2.1 acc) (ix2 r j)).trans ?_
    refine (Cert.KernelIdeal.PayIdx.accB_step_apply (iblk m c 1 (⟨n, h⟩ : Fin cfg0.N)) (iblk m c 2 (⟨n, h⟩ : Fin cfg0.N)) acc r j).trans ?_
    unfold addB
    rw [dif_pos h]
  · rw [dif_neg h1]
    refine (congrFun (Cert.KernelIdeal.Pieces.accB_mid (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) (ms0_8 (⟨n, h⟩ : Fin cfg0.N)) (hs0_8 (⟨n, h⟩ : Fin cfg0.N)) (ms0_9 (⟨n, h⟩ : Fin cfg0.N)) (hs0_9 (⟨n, h⟩ : Fin cfg0.N)) (ms0_10 (⟨n, h⟩ : Fin cfg0.N)) (hs0_10 (⟨n, h⟩ : Fin cfg0.N)) (ms0_11 (⟨n, h⟩ : Fin cfg0.N)) (hs0_11 (⟨n, h⟩ : Fin cfg0.N)) scM0_0 (Memref.isWhole_whole _) scM0_1 (Memref.isWhole_whole _) (fun h' => hn ((hcond0_0 (⟨n, h⟩ : Fin cfg0.N)).mp h')) (fun h' => h1 ((hcond0_1 (⟨n, h⟩ : Fin cfg0.N)).mp h')) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N)) (iblk m c 8 (⟨n, h⟩ : Fin cfg0.N)) (iblk m c 9 (⟨n, h⟩ : Fin cfg0.N)) (iblk m c 10 (⟨n, h⟩ : Fin cfg0.N)) (outsAt0 m c ((⟨n, h⟩ : Fin cfg0.N).val - 1) (Nat.lt_of_le_of_lt (Nat.sub_le _ _) (⟨n, h⟩ : Fin cfg0.N).isLt)).2.1 acc) (ix2 r j)).trans ?_
    refine (Cert.KernelIdeal.PayIdx.accB_step_apply (iblk m c 1 (⟨n, h⟩ : Fin cfg0.N)) (iblk m c 2 (⟨n, h⟩ : Fin cfg0.N)) acc r j).trans ?_
    unfold addB
    rw [dif_pos h]

/-- So after the last point of a run the B accumulator holds zero plus the twenty points' addends. -/
theorem foldB (c : Dev nD) (t : Fin cfg0.N) (ht : t.val % 20 = 19) (i : S256x4.Idx) :
    (outsAt0 m c t.val t.isLt).2.2 i = Cert.Nnue.zero + ∑ s ∈ Finset.range 20, addB m c (20 * (t.val / 20) + s) i := by
  rw [soutsAt0_1_eq m c t]
  refine (Pipeline.accAt_add_apply (fun n h => scAt0_1 m c n h (VS0_1.read (Elt Ideal) VS0_1.junk)) (scAt0_1 m c)
    (fun _ => Cert.Nnue.zero) (addB m c) (20 * (t.val / 20)) 19
    (fun h i => firstB m c _ h (Nat.mul_mod_right 20 _) _ i)
    (fun n h acc i hlt hle => stepB m c n h (by omega) acc i)
    (t.val % 20) (by omega) _ i).trans ?_
  rw [ht]

end Cert.KernelIdeal.Fold

end
-- ==== Proof.LibSumBlocks.lean ====
/- A sum over a flat row-major index is the nested sum over its coordinates. -/
import Mathlib.Data.Fintype.BigOperators
import Mathlib.Logic.Equiv.Fin.Basic

/-- The row-major position of the pair `(a, b)` in an `m × n` grid lies below `m * n`. -/
theorem Fin.rowMajor_lt {m n : ℕ} (a : Fin m) (b : Fin n) : a.val * n + b.val < m * n :=
  calc a.val * n + b.val < a.val * n + n := Nat.add_lt_add_left b.isLt _
    _ = (a.val + 1) * n := (Nat.succ_mul _ _).symm
    _ ≤ m * n := Nat.mul_le_mul_right n a.isLt

/-- Two axes: a sum over the flat index of an `m × n` grid is the sum over the rows of the sums along each row.
    The pairs `(a, b)` are in bijection with the flat positions `a * n + b`, and a sum over pairs is an iterated sum. -/
theorem Fin.sum_rowMajor2 {M : Type*} [AddCommMonoid M] (m n : ℕ) (f : Fin (m * n) → M) :
    ∑ e, f e = ∑ a : Fin m, ∑ b : Fin n, f ⟨a.val * n + b.val, Fin.rowMajor_lt a b⟩ := by
  rw [← Fintype.sum_prod_type' (f := fun (a : Fin m) (b : Fin n) => f ⟨a.val * n + b.val, Fin.rowMajor_lt a b⟩)]
  exact (Fintype.sum_equiv finProdFinEquiv (fun p : Fin m × Fin n => f ⟨p.1.val * n + p.2.val, Fin.rowMajor_lt p.1 p.2⟩) f
    (fun p => congrArg f (Fin.ext (by simp [Nat.mul_comm, Nat.add_comm])))).symm

/-- Four axes: a sum over the flat row-major index of an `n0 × n1 × n2 × n3` grid is the nested sum over its four
    coordinates, the last axis innermost — the two-axis statement applied to the last axis, then to the third, then to
    the second. -/
theorem Fin.sum_rowMajor4 {M : Type*} [AddCommMonoid M] (n0 n1 n2 n3 : ℕ) (f : Fin (n0 * n1 * n2 * n3) → M) :
    ∑ e, f e = ∑ a : Fin n0, ∑ b : Fin n1, ∑ c : Fin n2, ∑ d : Fin n3,
      f ⟨((a.val * n1 + b.val) * n2 + c.val) * n3 + d.val,
        Fin.rowMajor_lt (⟨(a.val * n1 + b.val) * n2 + c.val,
          Fin.rowMajor_lt (⟨a.val * n1 + b.val, Fin.rowMajor_lt a b⟩ : Fin (n0 * n1)) c⟩ : Fin (n0 * n1 * n2)) d⟩ :=
  (Fin.sum_rowMajor2 (n0 * n1 * n2) n3 f).trans <|
  (Fin.sum_rowMajor2 (n0 * n1) n2 (fun x => ∑ d : Fin n3, f ⟨x.val * n3 + d.val, Fin.rowMajor_lt x d⟩)).trans <|
  Fin.sum_rowMajor2 n0 n1 (fun y => ∑ c : Fin n2, ∑ d : Fin n3,
    f ⟨(y.val * n2 + c.val) * n3 + d.val, Fin.rowMajor_lt (⟨y.val * n2 + c.val, Fin.rowMajor_lt y c⟩ : Fin (n0 * n1 * n2)) d⟩)

/-- The instance used for the edge arrays: 3200000 = 2 · 2 · 6250 · 128 entries, read as two halves of two blocks of
    6250 rows of 128 lanes. -/
theorem sum_flat_2x2x6250x128 {M : Type*} [AddCommMonoid M] (f : Fin 3200000 → M) :
    ∑ e, f e = ∑ a : Fin 2, ∑ b : Fin 2, ∑ r : Fin 6250, ∑ l : Fin 128,
      f ⟨((a.val * 2 + b.val) * 6250 + r.val) * 128 + l.val, by omega⟩ :=
  Fin.sum_rowMajor4 2 2 6250 128 f
-- ==== Proof.Final.lean ====
/-
  The kernel's result array. At the last point of row block b's run the two accumulators hold, per row, the
  whole 81920-term feature sums (twenty chunk sums of 4096 regrouped into one sum); with the bias they are the
  specification's feature sums, so the output block written back there is rows 256b … 256b+255 of the
  specification's result; the four written-back blocks cover the array.
-/
import proofs.«148360_j16990890623528_1_alg».proof.Proof.Gen.KernelIdeal.Value
import proofs.«148360_j16990890623528_1_alg».proof.Proof.Pieces
import proofs.«148360_j16990890623528_1_alg».proof.Proof.PayIdx
import proofs.«148360_j16990890623528_1_alg».proof.Proof.Blocks
import proofs.«148360_j16990890623528_1_alg».proof.Proof.Fold
import proofs.«148360_j16990890623528_1_alg».proof.Proof.Spec
import proofs.«148360_j16990890623528_1_alg».proof.Proof.LibSumBlocks
import Idealize.ShloMosaic.Lib.Pipeline.Value
import Idealize.ShloMosaic.Lib.ValueIdx

noncomputable section

open scoped BigOperators

namespace Cert.KernelIdeal.Final

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The two feature arrays and the first-layer weights as launched, at their literal types. -/
abbrev featW (c : Dev nD) : Vec Ideal S1024x81920 .f32 := m ((c : Thread nD τ).loc main_arg0)
abbrev featB (c : Dev nD) : Vec Ideal S1024x81920 .f32 := m ((c : Thread nD τ).loc main_arg1)
abbrev wts0 (c : Dev nD) : Vec Ideal S4x81920 .f32 := m ((c : Thread nD τ).loc main_arg5)

/-- The specification's result of the launch contents of the eleven arguments. -/
abbrev result (c : Dev nD) : Buf (Elt Ideal) ((c : Thread nD τ).loc main_v0) :=
  Cert.Nnue.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- A row's loss depends only on the values handed to it. -/
theorem rowLoss_congr {w w' b b' : Fin 4 → EReal} {t t' sc sc' res res' : EReal}
    {W1 W1' : FVec Ideal ⟨2, ![8, 8]⟩ .f32} {b1 b1' : FVec Ideal ⟨1, ![8]⟩ .f32}
    {W2 W2' : FVec Ideal ⟨2, ![1, 8]⟩ .f32} {b2 b2' : FVec Ideal ⟨1, ![1]⟩ .f32}
    (hw : w = w') (hb : b = b') (ht : t = t') (hs : sc = sc') (hr : res = res') (h1 : W1 = W1') (h2 : b1 = b1')
    (h3 : W2 = W2') (h4 : b2 = b2') :
    Cert.Nnue.rowLoss w b t sc res W1 b1 W2 b2 = Cert.Nnue.rowLoss w' b' t' sc' res' W1' b1' W2' b2' := by
  subst hw hb ht hs hr h1 h2 h3 h4; rfl

/-- The twenty chunk sums of a row block's run, regrouped: the white feature sum over all 81920 columns. -/
theorem sumW (c : Dev nD) (t : Fin cfg0.N) (r : Fin 256) (j : Fin 4) (R : Fin 1024) (hR : R.val = 256 * (t.val / 20) + r.val) :
    ∑ s ∈ Finset.range 20, Cert.KernelIdeal.Fold.addW m c (20 * (t.val / 20) + s) (ix2 r j)
      = ∑ k : Fin 81920, featW m c (ix2 R k) * wts0 m c (ix2 j k) := by
  have hN : cfg0.N = 80 := N_0
  have htl := t.isLt
  rw [Finset.sum_range]
  refine Eq.trans ?_ (Fin.sum_rowMajor2 20 4096 (fun k : Fin 81920 => featW m c (ix2 R k) * wts0 m c (ix2 j k))).symm
  refine Finset.sum_congr rfl fun s _ => ?_
  have hs : 20 * (t.val / 20) + s.val < cfg0.N := by have := s.isLt; omega
  unfold Cert.KernelIdeal.Fold.addW
  rw [dif_pos hs]
  refine Finset.sum_congr rfl fun q _ => ?_
  exact congrArg₂ (· * ·)
    (Cert.KernelIdeal.Blocks.white_blk m c ⟨_, hs⟩ r q R ⟨s.val * 4096 + q.val, Fin.rowMajor_lt s q⟩
      (by show R.val = 256 * ((20 * (t.val / 20) + s.val) / 20) + r.val; have := s.isLt; omega)
      (by show s.val * 4096 + q.val = 4096 * ((20 * (t.val / 20) + s.val) % 20) + q.val; have := s.isLt; omega))
    (Cert.KernelIdeal.Blocks.w0_blk m c ⟨_, hs⟩ j q ⟨s.val * 4096 + q.val, Fin.rowMajor_lt s q⟩
      (by show s.val * 4096 + q.val = 4096 * ((20 * (t.val / 20) + s.val) % 20) + q.val; have := s.isLt; omega))

/-- The same for the black features. -/
theorem sumB (c : Dev nD) (t : Fin cfg0.N) (r : Fin 256) (j : Fin 4) (R : Fin 1024) (hR : R.val = 256 * (t.val / 20) + r.val) :
    ∑ s ∈ Finset.range 20, Cert.KernelIdeal.Fold.addB m c (20 * (t.val / 20) + s) (ix2 r j)
      = ∑ k : Fin 81920, featB m c (ix2 R k) * wts0 m c (ix2 j k) := by
  have hN : cfg0.N = 80 := N_0
  have htl := t.isLt
  rw [Finset.sum_range]
  refine Eq.trans ?_ (Fin.sum_rowMajor2 20 4096 (fun k : Fin 81920 => featB m c (ix2 R k) * wts0 m c (ix2 j k))).symm
  refine Finset.sum_congr rfl fun s _ => ?_
  have hs : 20 * (t.val / 20) + s.val < cfg0.N := by have := s.isLt; omega
  unfold Cert.KernelIdeal.Fold.addB
  rw [dif_pos hs]
  refine Finset.sum_congr rfl fun q _ => ?_
  exact congrArg₂ (· * ·)
    (Cert.KernelIdeal.Blocks.black_blk m c ⟨_, hs⟩ r q R ⟨s.val * 4096 + q.val, Fin.rowMajor_lt s q⟩
      (by show R.val = 256 * ((20 * (t.val / 20) + s.val) / 20) + r.val; have := s.isLt; omega)
      (by show s.val * 4096 + q.val = 4096 * ((20 * (t.val / 20) + s.val) % 20) + q.val; have := s.isLt; omega))
    (Cert.KernelIdeal.Blocks.w0_blk m c ⟨_, hs⟩ j q ⟨s.val * 4096 + q.val, Fin.rowMajor_lt s q⟩
      (by show s.val * 4096 + q.val = 4096 * ((20 * (t.val / 20) + s.val) % 20) + q.val; have := s.isLt; omega))

/-- THE OUTPUT BLOCK at the last point of a row block's run: row r of it is row 256·(t/20) + r of the specification's result. -/
theorem block_row (c : Dev nD) (t : Fin cfg0.N) (ht : t.val % 20 = 19) (r : Fin 256) (R : Fin 1024)
    (hR : R.val = 256 * (t.val / 20) + r.val) :
    (outsAt0 m c t.val t.isLt).1 (ix2 r (0 : Fin 1)) = result m c (ix2 R (0 : Fin 1)) := by
  have h0 : ¬ t.val % 20 = 0 := by omega
  -- the two accumulators the last point evaluates from are the run's finished folds
  have hAW : k0_pay4 (iblk m c 0 t) (iblk m c 2 t) (outsAt0 m c (t.val - 1) (Nat.lt_of_le_of_lt (Nat.sub_le _ _) t.isLt)).2.1 = (outsAt0 m c t.val t.isLt).2.1 := by
    rw [outsAt0_C m c t h0 ht]
    exact (Cert.KernelIdeal.Pieces.accW_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h' => h0 ((hcond0_0 t).mp h')) ((hcond0_1 t).mpr ht) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2).symm
  have hAB : k0_pay5 (iblk m c 1 t) (iblk m c 2 t) (outsAt0 m c (t.val - 1) (Nat.lt_of_le_of_lt (Nat.sub_le _ _) t.isLt)).2.2 = (outsAt0 m c t.val t.isLt).2.2 := by
    rw [outsAt0_C m c t h0 ht]
    exact (Cert.KernelIdeal.Pieces.accB_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h' => h0 ((hcond0_0 t).mp h')) ((hcond0_1 t).mpr ht) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2).symm
  rw [outsAt0_C m c t h0 ht]
  dsimp only
  refine (congrFun (Cert.KernelIdeal.Pieces.out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h' => h0 ((hcond0_0 t).mp h')) ((hcond0_1 t).mpr ht) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2) (ix2 r (0 : Fin 1))).trans ?_
  refine (Cert.KernelIdeal.PayIdx.out_apply (k0_pay4 (iblk m c 0 t) (iblk m c 2 t) (outsAt0 m c (t.val - 1) (Nat.lt_of_le_of_lt (Nat.sub_le _ _) t.isLt)).2.1)
    (k0_pay5 (iblk m c 1 t) (iblk m c 2 t) (outsAt0 m c (t.val - 1) (Nat.lt_of_le_of_lt (Nat.sub_le _ _) t.isLt)).2.2) (iblk m c 6 t) (iblk m c 3 t) (iblk m c 4 t) (iblk m c 5 t)
    (iblk m c 7 t) (iblk m c 8 t) (iblk m c 9 t) (iblk m c 10 t) r).trans ?_
  refine rowLoss_congr (funext fun j => ?_) (funext fun j => ?_)
    (Cert.KernelIdeal.Blocks.turn_blk m c t r ⟨R.val, R.isLt⟩ hR) (Cert.KernelIdeal.Blocks.score_blk m c t r ⟨R.val, R.isLt⟩ hR)
    (Cert.KernelIdeal.Blocks.result_blk m c t r ⟨R.val, R.isLt⟩ hR)
    (Cert.KernelIdeal.Blocks.w1_blk m c t) (Cert.KernelIdeal.Blocks.b1_blk m c t) (Cert.KernelIdeal.Blocks.w2_blk m c t)
    (Cert.KernelIdeal.Blocks.b2_blk m c t)
  · refine congrArg₂ (· + ·) ?_ (congrFun (Cert.KernelIdeal.Blocks.b0_blk m c t) (ix1 j))
    refine (congrFun hAW (ix2 r j)).trans ((Cert.KernelIdeal.Fold.foldW m c t ht (ix2 r j)).trans ?_)
    rw [Cert.Nnue.zero_eq, zero_add]
    exact sumW m c t r j ⟨R.val, R.isLt⟩ hR
  · refine congrArg₂ (· + ·) ?_ (congrFun (Cert.KernelIdeal.Blocks.b0_blk m c t) (ix1 j))
    refine (congrFun hAB (ix2 r j)).trans ((Cert.KernelIdeal.Fold.foldB m c t ht (ix2 r j)).trans ?_)
    rw [Cert.Nnue.zero_eq, zero_add]
    exact sumB m c t r j ⟨R.val, R.isLt⟩ hR

/-- What a writing-back point writes is the specification's result read through the point's block. -/
theorem flushed_eq (c : Dev nD) (t : Fin cfg0.N) (hf : (cfg0.win 11).flush t = true) :
    (dats m 0 c).flushed 11 t = ((cfg0.win 11).blk t).view.read (Elt Ideal) (result m c) := by
  have ht : t.val % 20 = 19 := (flush0_11 t).mp hf
  rw [flushed11]
  exact Cert.KernelIdeal.Blocks.out_cut_eq t _ (result m c) (fun r R hR => block_row m c t ht r R hR)

/-- So the result array ends holding the specification's result. -/
theorem final (c : Dev nD) : (dats m 0 c).arrAt 11 cfg0.N = result m c :=
  (dats m 0 c).arrAt_eq_of_cover 11 (result m c) (flushed_eq m c) Cert.KernelIdeal.Blocks.out_cover

/-- The kernel's run, read: the result array at the specification's result, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (run_blocks m ρ)

end Cert.KernelIdeal.Final

end
-- ==== Proof.RefValue.lean ====
/-
  The reference's result, read one operation at a time, is Spec's `G` of the argument arrays: its two
  81920-term products and biases are the feature sums, the two concatenations pick the perspective by the
  column half, its clip is min 1 (max 0 ·), its eight-term product splits into the two halves of four, and its
  sigmoid is spelt 1 / (1 + exp (−x)).
-/
import proofs.«148360_j16990890623528_1_alg».proof.Proof.Gen.ReferenceIdeal.Read
import proofs.«148360_j16990890623528_1_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.ValueIdx

open Cert.Nnue in
/-- The white perspective's product-plus-bias at (R, j) is the feature sum: the left factor is the row of the
    features, the transposed right factor at (k, j) is the weight at (j, k), the twice-broadcast bias is the bias at j. -/
private theorem ftw_read (X : FVec Ideal S1024x81920 .f32) (W0 : FVec Ideal S4x81920 .f32) (b0 : FVec Ideal S4 .f32)
    (R : Fin 1024) (j : Fin 4) :
    Read.val_main_v4 (F := Ideal) X W0 b0 (ix2 R j) = ft X W0 b0 R j := by
  rw [Read.val_main_v4_apply, Read.val_main_v1_apply, Read.val_main_v3_apply, Read.val_main_v2_apply]
  simp only [Read.val_main_v0_apply]
  have el : ∀ k : Fin 81920, Read.lidx_main_v1 (ix2 R j) k = ix2 R k := fun k =>
    funext fun a => Fin.ext (by match a with | ⟨0, _⟩ => rfl | ⟨1, _⟩ => rfl)
  have er : ∀ k : Fin 81920, Read.idx_main_v0 (Read.ridx_main_v1 (ix2 R j) k) = ix2 j k := fun k =>
    funext fun a => Fin.ext (by match a with | ⟨0, _⟩ => rfl | ⟨1, _⟩ => rfl)
  have eb : Read.idx_main_v2 (Read.idx_main_v3 (ix2 R j)) = ix1 j :=
    funext fun a => Fin.ext (by match a with | ⟨0, _⟩ => rfl)
  simp only [el, er, eb]
  rfl

open Cert.Nnue in
/-- The black perspective's product-plus-bias at (R, j) is the feature sum of the black features. -/
private theorem ftb_read (X : FVec Ideal S1024x81920 .f32) (W0 : FVec Ideal S4x81920 .f32) (b0 : FVec Ideal S4 .f32)
    (R : Fin 1024) (j : Fin 4) :
    Read.val_main_v9 (F := Ideal) X W0 b0 (ix2 R j) = ft X W0 b0 R j := by
  rw [Read.val_main_v9_apply, Read.val_main_v6_apply, Read.val_main_v8_apply, Read.val_main_v7_apply]
  simp only [Read.val_main_v5_apply]
  have el : ∀ k : Fin 81920, Read.lidx_main_v6 (ix2 R j) k = ix2 R k := fun k =>
    funext fun a => Fin.ext (by match a with | ⟨0, _⟩ => rfl | ⟨1, _⟩ => rfl)
  have er : ∀ k : Fin 81920, Read.idx_main_v5 (Read.ridx_main_v6 (ix2 R j) k) = ix2 j k := fun k =>
    funext fun a => Fin.ext (by match a with | ⟨0, _⟩ => rfl | ⟨1, _⟩ => rfl)
  have eb : Read.idx_main_v7 (Read.idx_main_v8 (ix2 R j)) = ix1 j :=
    funext fun a => Fin.ext (by match a with | ⟨0, _⟩ => rfl)
  simp only [el, er, eb]
  rfl

/-- A column below four of the joined array comes from the first operand at that column. -/
private theorem cat_left (a b : FVec Ideal S1024x4 .f32) (R : Fin 1024) (j : Fin 4) :
    concatenate S1024x8 1 [⟨S1024x4, a⟩, ⟨S1024x4, b⟩] concatenates_S1024x4_S1024x4_S1024x8_d1
      (ix2 R (⟨j.val, by omega⟩ : Fin 8)) = a (ix2 R j) :=
  concatenate_pair_apply_left (1 : Fin S1024x8.rank) a b concatenates_S1024x4_S1024x4_S1024x8_d1
    (ix2 R (⟨j.val, by omega⟩ : Fin 8)) rfl (ix2 R j) (fun d => by match d with | ⟨0, _⟩ => rfl | ⟨1, _⟩ => rfl)

/-- Column four plus j of the joined array comes from the second operand at column j. -/
private theorem cat_right (a b : FVec Ideal S1024x4 .f32) (R : Fin 1024) (j : Fin 4) :
    concatenate S1024x8 1 [⟨S1024x4, a⟩, ⟨S1024x4, b⟩] concatenates_S1024x4_S1024x4_S1024x8_d1
      (ix2 R (⟨j.val + 4, by omega⟩ : Fin 8)) = b (ix2 R j) :=
  concatenate_pair_apply_right (1 : Fin S1024x8.rank) a b concatenates_S1024x4_S1024x4_S1024x8_d1
    (ix2 R (⟨j.val + 4, by omega⟩ : Fin 8)) rfl rfl (ix2 R j)
    (fun d hd => by match d with | ⟨0, _⟩ => rfl | ⟨1, _⟩ => exact absurd rfl hd) rfl

section Row

open Cert.Nnue

variable (Xw Xb : FVec Ideal S1024x81920 .f32) (turn score result : FVec Ideal S1024x1 .f32)
  (W0 : FVec Ideal S4x81920 .f32) (b0 : FVec Ideal S4 .f32) (W1 : FVec Ideal S8x8 .f32) (b1 : FVec Ideal S8 .f32)
  (W2 : FVec Ideal S1x8 .f32) (b2 : FVec Ideal S1 .f32) (R : Fin 1024)

/-- The side to move, broadcast along the eight columns, is the row's entry. -/
private theorem turn_idx (q : Fin 8) : Read.idx_main_v11 (ix2 R q) = ix2 R (0 : Fin 1) :=
  funext fun a => Fin.ext (by match a with | ⟨0, _⟩ => rfl | ⟨1, _⟩ => rfl)

/-- Its complement, broadcast along the eight columns, is read at the row's entry too. -/
private theorem coturn_idx (q : Fin 8) : Read.idx_main_v16 (ix2 R q) = ix2 R (0 : Fin 1) :=
  funext fun a => Fin.ext (by match a with | ⟨0, _⟩ => rfl | ⟨1, _⟩ => rfl)

/-- The mixed accumulator at a column below four: the side to move weighs the white sum, its complement the black. -/
private theorem acc_left (j : Fin 4) :
    Read.val_main_v18 (F := Ideal) Xw Xb turn W0 b0 (ix2 R (⟨j.val, by omega⟩ : Fin 8))
      = mix (turn (ix2 R (0 : Fin 1))) (ft Xw W0 b0 R j) (ft Xb W0 b0 R j) := by
  rw [Read.val_main_v18_apply, Read.val_main_v12_apply, Read.val_main_v17_apply, Read.val_main_v11_apply,
    Read.val_main_v16_apply, Read.val_main_v14_apply, Read.val_main_v13_apply, Read.val_main_cst_apply,
    turn_idx, coturn_idx]
  unfold Read.val_main_v10 Read.val_main_v15
  rw [cat_left, cat_left, ftw_read, ftb_read]
  rfl

/-- The mixed accumulator at column four plus j: the side to move weighs the black sum, its complement the white. -/
private theorem acc_right (j : Fin 4) :
    Read.val_main_v18 (F := Ideal) Xw Xb turn W0 b0 (ix2 R (⟨j.val + 4, by omega⟩ : Fin 8))
      = mix (turn (ix2 R (0 : Fin 1))) (ft Xb W0 b0 R j) (ft Xw W0 b0 R j) := by
  rw [Read.val_main_v18_apply, Read.val_main_v12_apply, Read.val_main_v17_apply, Read.val_main_v11_apply,
    Read.val_main_v16_apply, Read.val_main_v14_apply, Read.val_main_v13_apply, Read.val_main_cst_apply,
    turn_idx, coturn_idx]
  unfold Read.val_main_v10 Read.val_main_v15
  rw [cat_right, cat_right, ftw_read, ftb_read]
  rfl

/-- The first clip at an index: min 1 (max 0 ·) of the accumulator there. -/
private theorem clip1_read (q : Fin 8) :
    Read.val_main_v19 (F := Ideal) Xw Xb turn W0 b0 (ix2 R q)
      = clip01 (Read.val_main_v18 (F := Ideal) Xw Xb turn W0 b0 (ix2 R q)) := by
  rw [Read.val_main_v19_apply, Read.val_main_call0_v4_apply, Read.val_main_call0_v3_apply, Read.val_main_cst_1_apply,
    Read.val_main_call0_v2_apply, Read.val_main_call0_v1_apply, Read.val_main_call0_v0_apply, Read.val_main_cst_0_apply]
  rfl

/-- The second layer before its clip at (R, n): the eight-term product splits into its two halves of four, the
    first over the white-weighted columns, the second over the black-weighted ones; then the bias. -/
private theorem layer2_read (n : Fin 8) :
    Read.val_main_v24 (F := Ideal) Xw Xb turn W0 b0 W1 b1 (ix2 R n)
      = layer2 (fun j => clip01 (mix (turn (ix2 R (0 : Fin 1))) (ft Xw W0 b0 R j) (ft Xb W0 b0 R j)))
          (fun j => clip01 (mix (turn (ix2 R (0 : Fin 1))) (ft Xb W0 b0 R j) (ft Xw W0 b0 R j))) W1 b1 n := by
  rw [Read.val_main_v24_apply, Read.val_main_v21_apply, Read.val_main_v23_apply, Read.val_main_v22_apply]
  simp only [Read.val_main_v20_apply]
  have el : ∀ k : Fin 8, Read.lidx_main_v21 (ix2 R n) k = ix2 R k := fun k =>
    funext fun a => Fin.ext (by match a with | ⟨0, _⟩ => rfl | ⟨1, _⟩ => rfl)
  have er : ∀ k : Fin 8, Read.idx_main_v20 (Read.ridx_main_v21 (ix2 R n) k) = ix2 n k := fun k =>
    funext fun a => Fin.ext (by match a with | ⟨0, _⟩ => rfl | ⟨1, _⟩ => rfl)
  have eb : Read.idx_main_v22 (Read.idx_main_v23 (ix2 R n)) = ix1 n :=
    funext fun a => Fin.ext (by match a with | ⟨0, _⟩ => rfl)
  simp only [el, er, eb]
  rw [sum8_halves]
  simp only [clip1_read, acc_left, acc_right]
  rfl

/-- The second clip at an index. -/
private theorem clip2_read (n : Fin 8) :
    Read.val_main_v25 (F := Ideal) Xw Xb turn W0 b0 W1 b1 (ix2 R n)
      = clip01 (Read.val_main_v24 (F := Ideal) Xw Xb turn W0 b0 W1 b1 (ix2 R n)) := by
  rw [Read.val_main_v25_apply, Read.val_main_call1_v4_apply, Read.val_main_call1_v3_apply, Read.val_main_cst_3_apply,
    Read.val_main_call1_v2_apply, Read.val_main_call1_v1_apply, Read.val_main_call1_v0_apply, Read.val_main_cst_2_apply]
  rfl

/-- The evaluation at row R: the clipped second layer against the output weights, plus the output bias. -/
private theorem eval_read :
    Read.val_main_v30 (F := Ideal) Xw Xb turn W0 b0 W1 b1 W2 b2 (ix2 R (0 : Fin 1))
      = evalOf (fun n => clip01 (layer2 (fun j => clip01 (mix (turn (ix2 R (0 : Fin 1))) (ft Xw W0 b0 R j) (ft Xb W0 b0 R j)))
          (fun j => clip01 (mix (turn (ix2 R (0 : Fin 1))) (ft Xb W0 b0 R j) (ft Xw W0 b0 R j))) W1 b1 n)) W2 b2 := by
  rw [Read.val_main_v30_apply, Read.val_main_v27_apply, Read.val_main_v29_apply, Read.val_main_v28_apply]
  simp only [Read.val_main_v26_apply]
  have el : ∀ k : Fin 8, Read.lidx_main_v27 (ix2 R (0 : Fin 1)) k = ix2 R k := fun k =>
    funext fun a => Fin.ext (by match a with | ⟨0, _⟩ => rfl | ⟨1, _⟩ => rfl)
  have er : ∀ k : Fin 8, Read.idx_main_v26 (Read.ridx_main_v27 (ix2 R (0 : Fin 1)) k) = ix2 (0 : Fin 1) k := fun k =>
    funext fun a => Fin.ext (by match a with | ⟨0, _⟩ => rfl | ⟨1, _⟩ => rfl)
  have eb : Read.idx_main_v28 (Read.idx_main_v29 (ix2 R (0 : Fin 1))) = ix1 (0 : Fin 1) :=
    funext fun a => Fin.ext (by match a with | ⟨0, _⟩ => rfl)
  simp only [el, er, eb, clip2_read, layer2_read]
  rfl

/-- The loss at row R: both logistic functions are spelt 1 / (1 + exp (−x)) over the word for one, the squared
    differences are weighed by the words for one and zero. -/
private theorem loss_read :
    Read.val_main_v55 (F := Ideal) Xw Xb turn score result W0 b0 W1 b1 W2 b2 (ix2 R (0 : Fin 1))
      = rowLoss (ft Xw W0 b0 R) (ft Xb W0 b0 R) (turn (ix2 R (0 : Fin 1))) (score (ix2 R (0 : Fin 1)))
          (result (ix2 R (0 : Fin 1))) W1 b1 W2 b2 := by
  simp only [Read.val_main_v55_apply, Read.val_main_v52_apply, Read.val_main_v54_apply, Read.val_main_v51_apply,
    Read.val_main_cst_10_apply, Read.val_main_v53_apply, Read.val_main_cst_11_apply, Read.val_main_v48_apply,
    Read.val_main_v50_apply, Read.val_main_v47_apply, Read.val_main_v49_apply, Read.val_main_v46_apply,
    Read.val_main_v45_apply, Read.val_main_cst_9_apply, Read.val_main_v44_apply, Read.val_main_v43_apply,
    Read.val_main_cst_8_apply, Read.val_main_v42_apply, Read.val_main_v41_apply, Read.val_main_v40_apply,
    Read.val_main_v39_apply, Read.val_main_cst_7_apply, Read.val_main_v38_apply, Read.val_main_v37_apply,
    Read.val_main_cst_6_apply, Read.val_main_v36_apply, Read.val_main_v35_apply, Read.val_main_cst_5_apply,
    Read.val_main_v34_apply, Read.val_main_v33_apply, Read.val_main_v32_apply, Read.val_main_v31_apply,
    Read.val_main_cst_4_apply, eval_read]
  rfl

end Row

/-- The reference's result array is `G` of its arguments. -/
theorem result_eq (m : (ℓ : Loc nD τ sig) → Buf (Elt Ideal) ℓ) (c : Dev nD) :
    Cert.ReferenceIdeal.Value.res_out0 (F := Ideal) m c
      = Cert.Nnue.G (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) := by
  funext i
  obtain ⟨R, z, rfl⟩ : ∃ (R : Fin 1024) (z : Fin 1), i = ix2 R z := ⟨i 0, i 1, eq_ix2 i⟩
  obtain rfl : z = 0 := Subsingleton.elim _ _
  refine (congrFun (Read.val_main_v55_eq (F := Ideal) m c) (ix2 R (0 : Fin 1))).trans ?_
  exact loss_read _ _ _ _ _ _ _ _ _ _ _ R

end Cert.ReferenceIdeal.RefValue

end
-- ==== Proof.lean ====
/-
  The certificate's proof. The kernel streams the two 1024 × 81920 feature arrays through twenty column chunks
  per block of 256 rows, accumulating each perspective's four feature sums in two carried accumulators, and at
  the last chunk evaluates the small network and the loss for the block's rows. Over the extended reals the
  twenty chunk sums regroup into the reference's single 81920-term sum (addition is commutative and
  associative there; no distributive law is used, so the finiteness of the inputs is never opened), the
  eight-column second layer is the sum of its two four-column halves, and the kernel's logistic unit is the
  reference's 1 / (1 + exp (−x)). Both programs therefore end at one function of the arguments (Spec's `G`).
  The three frames are the generated ones (the reference's from its generated run); the ideal pass rewrote nothing.
-/
import proofs.«148360_j16990890623528_1_alg».proof.Defs
import proofs.«148360_j16990890623528_1_alg».proof.Proof.Gen.Kernel
import proofs.«148360_j16990890623528_1_alg».proof.Proof.Gen.Kernel.Frame
import proofs.«148360_j16990890623528_1_alg».proof.Proof.Gen.KernelIdeal
import proofs.«148360_j16990890623528_1_alg».proof.Proof.Gen.KernelIdeal.Frame
import proofs.«148360_j16990890623528_1_alg».proof.Proof.Gen.KernelIdeal.Value
import proofs.«148360_j16990890623528_1_alg».proof.Proof.Gen.ReferenceIdeal
import proofs.«148360_j16990890623528_1_alg».proof.Proof.Gen.ReferenceIdeal.Run
import proofs.«148360_j16990890623528_1_alg».proof.Proof.Gen.ReferenceIdeal.Read
import proofs.«148360_j16990890623528_1_alg».proof.Proof.Gen.Pre_finite_inputs
import proofs.«148360_j16990890623528_1_alg».proof.Proof.Final
import proofs.«148360_j16990890623528_1_alg».proof.Proof.RefValue
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, fun m ρ _ => ?_, trivial, ?_⟩
  · exact (θ_run Cert.ReferenceIdeal.defs _ _).mono (fun _ h c => (h c).2) (Cert.ReferenceIdeal.Value.run (F := Ideal) m ρ)
  · intro m ρ m' ρ' _ hagree
    refine ⟨fun c => Cert.KernelIdeal.Final.result m c, Cert.KernelIdeal.Final.run m ρ, ?_⟩
    refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10⟩ := hagree c
    refine (Cert.ReferenceIdeal.RefValue.result_eq m' c).trans ?_
    show Cert.Nnue.G _ _ _ _ _ _ _ _ _ _ _ = Cert.Nnue.G _ _ _ _ _ _ _ _ _ _ _
    rw [h0, h1, h2, h3, h4, h5, h6, h7, h8, h9, h10]⟩

end Cert.Proof

end
